-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part4 {F : FTy → Type} [FloatOps F] (main_v63 : IVec S_ 1) (main_v67 : IVec S1600000 1) (main_v68 : IVec S1x1600000 32) : IVec S_ 1 :=
  let main_v69 : IVec S1600000 32 := shapeCast S1600000 main_v68 shapeCasts_S1x1600000_S1600000
  let main_c_25 : IVec S_ 32 := constantI S_ 32 100000#32
  let main_v70 : IVec S1600000 32 := broadcastInDim S1600000 ![] bcast_S_S1600000 main_c_25
  let main_v71 : IVec S1600000 1 := cmpi .slt main_v69 main_v70
  let main_v72 : IVec S1600000 1 := andi main_v67 main_v71
  let main_c_26 : IVec S_ 1 := constantI S_ 1 1#1
  let main_v73 : IVec S_ 1 := (fun x v => Host.reduce IntOp.andi x v reducesTo_S1600000_S_d0 h_S_) main_v72 main_c_26
  let main_v74 : IVec S_ 1 := andi main_v63 main_v73
  main_v74

def fn_part3 {F : FTy → Type} [FloatOps F] (main_arg1 : IVec S2x1600000 32) (main_arg13 : FVec F S128x10 .f32) (main_arg14 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x10 .f32 := Host.absf main_arg13
  let main_cst_20 : FVec F S_ .f32 := constant S_ .f32 0x7F800000#32
  let main_v55 : FVec F S128x10 .f32 := broadcastInDim S128x10 ![] bcast_S_S128x10 main_cst_20
  let main_v56 : IVec S128x10 1 := cmpf .olt main_v54 main_v55
  let main_c_21 : IVec S_ 1 := constantI S_ 1 1#1
  let main_v57 : IVec S_ 1 := (fun x v => Host.reduce IntOp.andi x v reducesTo_S128x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : IVec S1x1600000 32 := (extractStridedSlice S1x1600000 ![0, 0] · slices_S2x1600000_S1x1600000_0_0) main_arg1
  let main_v65 : IVec S1600000 32 := shapeCast S1600000 main_v64 shapeCasts_S1x1600000_S1600000
  let main_c_24 : IVec S_ 32 := constantI S_ 32 0#32
  let main_v66 : IVec S1600000 32 := broadcastInDim S1600000 ![] bcast_S_S1600000 main_c_24
  let main_v67 : IVec S1600000 1 := cmpi .sge main_v65 main_v66
  let main_v68 : IVec S1x1600000 32 := (extractStridedSlice S1x1600000 ![0, 0] · slices_S2x1600000_S1x1600000_0_0) main_arg1
  fn_part4 (F := F) main_v63 main_v67 main_v68

def fn_part2 {F : FTy → Type} [FloatOps F] (main_arg1 : IVec S2x1600000 32) (main_arg9 : FVec F S128x128 .f32) (main_arg10 : FVec F S128 .f32) (main_arg11 : FVec F S128x128 .f32) (main_arg12 : FVec F S128 .f32) (main_arg13 : FVec F S128x10 .f32) (main_arg14 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_v48 main_v49 main_v50

def fn_part1 {F : FTy → Type} [FloatOps F] (main_arg1 : IVec S2x1600000 32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S2000x128 : Shape := ⟨2, ![2000, 128]⟩
abbrev S1x128 : Shape := ⟨2, ![1, 128]⟩
abbrev S1024x128 : Shape := ⟨2, ![1024, 128]⟩
abbrev S100000x1 : Shape := ⟨2, ![100000, 1]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩

abbrev nBuf : Space → Nat
  | .hbm => 80
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1, .i32⟩
  | .hbm, ⟨28, _⟩ => ⟨S_, .i32⟩
  | .hbm, ⟨29, _⟩ => ⟨S1600000x1, .i32⟩
  | .hbm, ⟨30, _⟩ => ⟨S1600000x1, .i1⟩
  | .hbm, ⟨31, _⟩ => ⟨S1x1, .i32⟩
  | .hbm, ⟨32, _⟩ => ⟨S1600000x1, .i32⟩
  | .hbm, ⟨33, _⟩ => ⟨S1600000x1, .i1⟩
  | .hbm, ⟨34, _⟩ => ⟨S1600000x1, .i1⟩
  | .hbm, ⟨35, _⟩ => ⟨S_, .i1⟩
  | .hbm, ⟨36, _⟩ => ⟨S1600000, .i1⟩
  | .hbm, ⟨37, _⟩ => ⟨S1600000x128, .f32⟩
  | .hbm, ⟨38, _⟩ => ⟨S1600000x128, .i1⟩
  | .hbm, ⟨39, _⟩ => ⟨S_, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1, .i32⟩
  | .hbm, ⟨56, _⟩ => ⟨S_, .i32⟩
  | .hbm, ⟨57, _⟩ => ⟨S1600000x1, .i32⟩
  | .hbm, ⟨58, _⟩ => ⟨S1600000x1, .i1⟩
  | .hbm, ⟨59, _⟩ => ⟨S1x1, .i32⟩
  | .hbm, ⟨60, _⟩ => ⟨S1600000x1, .i32⟩
  | .hbm, ⟨61, _⟩ => ⟨S1600000x1, .i1⟩
  | .hbm, ⟨62, _⟩ => ⟨S1600000x1, .i1⟩
  | .hbm, ⟨63, _⟩ => ⟨S_, .i1⟩
  | .hbm, ⟨64, _⟩ => ⟨S1600000, .i1⟩
  | .hbm, ⟨65, _⟩ => ⟨S1600000x128, .f32⟩
  | .hbm, ⟨66, _⟩ => ⟨S1600000x128, .i1⟩
  | .hbm, ⟨67, _⟩ => ⟨S_, .f32⟩
  | .hbm, ⟨68, _⟩ => ⟨S1600000x128, .f32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S1024x128, .f32⟩
  | .hbm, ⟨77, _⟩ => ⟨S100000x1, .i32⟩
  | .hbm, ⟨78, _⟩ => ⟨S1024x128, .f32⟩
  | .hbm, ⟨79, _⟩ => ⟨S1024x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S1024x128, .f32⟩
  | .local _ .vmem, ⟨21, _⟩ => ⟨S128x128, .f32⟩
  | .local _ .vmem, ⟨22, _⟩ => ⟨S128, .f32⟩
  | .local _ .vmem, ⟨23, _⟩ => ⟨S128x10, .f32⟩
  | .local _ .vmem, ⟨24, _⟩ => ⟨S10, .f32⟩
  | .local _ .vmem, ⟨25, _⟩ => ⟨S1024x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v9 : Ref sig .tc := ⟨.hbm, 69, rfl⟩
abbrev main_cst_0 : Ref sig .tc := ⟨.hbm, 70, rfl⟩
abbrev main_v10 : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_cst_1 : Ref sig .tc := ⟨.hbm, 75, rfl⟩
abbrev main_v14 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x10 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S1024x128 : S_.BroadcastsInDim S1024x128 (![] : Fin 0 → Fin S1024x128.rank)
  bcast_S100000_S100000x1_0 : S100000.BroadcastsInDim S100000x1 (![0] : Fin 1 → Fin S100000x1.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  broadcasts_S1x128_S1024x128 : S1x128.Broadcasts S1024x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  reduces_S1024x10_S1024 : S1024x10.Reduces [1] S1024
  shapeCasts_S1024_S1024x1 : S1024.ShapeCasts S1024x1
  broadcasts_S1024x1_S1024x10 : S1024x1.Broadcasts S1024x10
  inb_S1024x10_S1024x10_0_0 : ∀ a, (![0, 0] : Fin 2 → Nat) a + S1024x10.size a ≤ S1024x10.size a
  h_S1024x10 : 0 < S1024x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x10_S1024x10_1_0_0_1_n_n_wf : DotDims.WF S1024x128 S128x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S1024x128.size a
  hwx2_0 : ∀ i : grid2.Coords, EltTy.bits .f32 = 32 ∨ (Rect.block (s := S1024x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x10.size a ≤ S128x10.size a
  hwx2_3 : ∀ i : grid2.Coords, EltTy.bits .f32 = 32 ∨ (Rect.block (s := S128x10) S128x10.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S10.size a ≤ S10.size a
  hwx2_4 : ∀ i : grid2.Coords, EltTy.bits .f32 = 32 ∨ (Rect.block (s := S10) S10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1024x10.size a ≤ S1024x10.size a
  hwx2_5 : ∀ i : grid2.Coords, EltTy.bits .f32 = 32 ∨ (Rect.block (s := S1024x10) S1024x10.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v8) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v16) S1024x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x10.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v17) S1024x10.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1024x128 : Shape := ⟨2, ![1024, 128]⟩
abbrev S100000x1 : Shape := ⟨2, ![100000, 1]⟩
abbrev S1024x10 : Shape := ⟨2, ![1024, 10]⟩
abbrev S1x10 : Shape := ⟨2, ![1, 10]⟩
abbrev S1024 : Shape := ⟨1, ![1024]⟩
abbrev S1024x1 : Shape := ⟨2, ![1024, 1]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x10, .f32⟩
  | .hbm, ⟨14, _⟩ => ⟨S10, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | .hbm, ⟨37, _⟩ => ⟨S_, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S1024x128, .f32⟩
  | .hbm, ⟨77, _⟩ => ⟨S100000x1, .i32⟩
  | .hbm, ⟨78, _⟩ => ⟨S1024x128, .f32⟩
  | .hbm, ⟨79, _⟩ => ⟨S1024x128, .f32⟩
  | .hbm, ⟨80, _⟩ => ⟨S1x128, .f32⟩
  | .hbm, ⟨81, _⟩ => ⟨S1024x128, .f32⟩
  | .hbm, ⟨82, _⟩ => ⟨S1024x128, .f32⟩
  | .hbm, ⟨83, _⟩ => ⟨S_, .f32⟩
  | .hbm, ⟨84, _⟩ => ⟨S1024x128, .f32⟩
  | .hbm, ⟨85, _⟩ => ⟨S1024x128, .f32⟩
  | .hbm, ⟨86, _⟩ => ⟨S1024x10, .f32⟩
  | .hbm, ⟨87, _⟩ => ⟨S1x10, .f32⟩
  | .hbm, ⟨88, _⟩ => ⟨S1024x10, .f32⟩
  | .hbm, ⟨89, _⟩ => ⟨S1024x10, .f32⟩
  | .hbm, ⟨90, _⟩ => ⟨S_, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S1024x1, .f32⟩
  | .hbm, ⟨96, _⟩ => ⟨S1024x10, .f32⟩
  | .hbm, ⟨97, _⟩ => ⟨S1024x10, .f32⟩
  | .hbm, ⟨98, _⟩ => ⟨S1024x10, .f32⟩
  | .hbm, ⟨99, _⟩ => ⟨S_, .f32⟩
  | .hbm, ⟨100, _⟩ => ⟨S1024, .f32⟩
  | .hbm, ⟨101, _⟩ => ⟨S1024x1, .f32⟩
  | .hbm, ⟨102, _⟩ => ⟨S1024x1, .f32⟩
  | .hbm, ⟨103, _⟩ => ⟨S1024x10, .f32⟩
  | .hbm, ⟨104, _⟩ => ⟨S1024x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_c_1 : Ref sig .tc := ⟨.hbm, 47, rfl⟩
abbrev main_v25 : Ref sig .tc := ⟨.hbm, 48, rfl⟩
abbrev main_v26 : Ref sig .tc := ⟨.hbm, 49, rfl⟩
abbrev main_c_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_cst : Ref sig .tc := ⟨.hbm, 65, rfl⟩
abbrev main_call2_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call3_cst : Ref sig .tc := ⟨.hbm, 72, rfl⟩
abbrev main_call3_v0 : Ref sig .tc := ⟨.hbm, 73, rfl⟩
abbrev main_v45 : Ref sig .tc := ⟨.hbm, 74, rfl⟩
abbrev main_cst_4 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call4_cst : Ref sig .tc := ⟨.hbm, 83, rfl⟩
abbrev main_call4_v0 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call5_cst : Ref sig .tc := ⟨.hbm, 90, rfl⟩
abbrev main_call5_v0 : Ref sig .tc := ⟨.hbm, 91, rfl⟩
abbrev main_call5_cst_0 : Ref sig .tc := ⟨.hbm, 92, rfl⟩
abbrev main_call5_v1 : Ref sig .tc := ⟨.hbm, 93, rfl⟩
abbrev main_call5_v2 : Ref sig .tc := ⟨.hbm, 94, rfl⟩
abbrev main_call5_v3 : Ref sig .tc := ⟨.hbm, 95, rfl⟩
abbrev main_call5_v4 : Ref sig .tc := ⟨.hbm, 96, rfl⟩
abbrev main_call5_v5 : Ref sig .tc := ⟨.hbm, 97, rfl⟩
abbrev main_call5_v6 : Ref sig .tc := ⟨.hbm, 98, rfl⟩
abbrev main_call5_cst_1 : Ref sig .tc := ⟨.hbm, 99, rfl⟩
abbrev main_call5_v7 : Ref sig .tc := ⟨.hbm, 100, rfl⟩
abbrev main_call5_v8 : Ref sig .tc := ⟨.hbm, 101, rfl⟩
abbrev main_call5_v9 : Ref sig .tc := ⟨.hbm, 102, rfl⟩
abbrev main_call5_v10 : Ref sig .tc := ⟨.hbm, 103, rfl⟩
abbrev main_v58 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  bcast_S1x128_S1024x128_0_1 : S1x128.BroadcastsInDim S1024x128 (![0, 1] : Fin 2 → Fin S1024x128.rank)
  bcast_S10_S1x10_1 : S10.BroadcastsInDim S1x10 (![1] : Fin 1 → Fin S1x10.rank)
  bcast_S1x10_S1024x10_0_1 : S1x10.BroadcastsInDim S1024x10 (![0, 1] : Fin 2 → Fin S1024x10.rank)
  reducesTo_S1024x10_S1024_d1 : S1024x10.ReducesTo [1] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S1024x1_S1024x10_0_1 : S1024x1.BroadcastsInDim S1024x10 (![0, 1] : Fin 2 → Fin S1024x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  dot_S1024x128_S128x128_S1024x128_1_0_0_1_n_n_wf : DotDims.WF S1024x128 S128x128 S1024x128 [1] [0] [0] [1] [] []
  dot_S1024x128_S128x10_S1024x10_1_0_0_1_n_n_wf : DotDims.WF S1024x128 S128x10 S1024x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf

class Facts : Prop extends Facts₀ where

variable [Facts]
-- ==== Proof.Spec.lean ====
/-
  What both programs compute, row by row, on the extended reals.

  A GIN convolution sends a node's features `h` and the sum `agg` of its in-neighbours' features to
  `max(max((h + agg)·Wa + ba, 0)·Wb + bb, 0)`: two affine maps, each followed by the positive part. The read-out sends a
  graph's pooled features `g` to `logsoftmax(max(g·Wl1 + bl1, 0)·Wl2 + bl2)`, the log-softmax taken in its shifted form
  `(z - M) - log Σ exp(z - M)` with `M` the row's maximum. Every sum is a `Finset` sum over the contracted axis, so its
  order and grouping are not part of the statement; the two constants (zero, and minus infinity as the maximum's
  starting value) are kept as the words both programs print.
-/
import Idealize.ShloMosaic.PureOps.Ideal
import Idealize.ShloMosaic.Lib.ValueIdx

noncomputable section

open scoped BigOperators

namespace Cert.Spec

open Idealize.ShloMosaic Idealize.ShloMosaic.ValueIdx

/-- The zero both programs compare against in a positive part. -/
abbrev zeroW : EReal := Ideal.ofBits .f32 0x00000000#32

/-- The value a row maximum starts from (the pattern of minus infinity). -/
abbrev negInfW : EReal := Ideal.ofBits .f32 0xFF800000#32

/-- An affine map of a vector at an output coordinate: `(v·W) j + b j`. -/
def lin {n k : Nat} (v : Fin n → EReal) (w : Fin n → Fin k → EReal) (b : Fin k → EReal) (j : Fin k) : EReal :=
  (∑ t : Fin n, v t * w t j) + b j

/-- Two affine maps, each followed by the positive part: one node's row of a GIN convolution's perceptron. -/
def mlpRow (v : Fin 128 → EReal) (wa : Fin 128 → Fin 128 → EReal) (ba : Fin 128 → EReal)
    (wb : Fin 128 → Fin 128 → EReal) (bb : Fin 128 → EReal) (j : Fin 128) : EReal :=
  max (lin (fun k => max (lin v wa ba k) zeroW) wb bb j) zeroW

/-- The shifted log-softmax of a row. -/
def lsmRow {n : Nat} (z : Fin n → EReal) (j : Fin n) : EReal :=
  (z j - (Finset.univ : Finset (Fin n)).fold max negInfW z)
    - Ideal.log (∑ t : Fin n, Ideal.exp (z t - (Finset.univ : Finset (Fin n)).fold max negInfW z))

/-- One graph's row of the read-out: affine, positive part, affine, log-softmax. -/
def clsRow (g : Fin 128 → EReal) (wl1 : Fin 128 → Fin 128 → EReal) (bl1 : Fin 128 → EReal)
    (wl2 : Fin 128 → Fin 10 → EReal) (bl2 : Fin 10 → EReal) : Fin 10 → EReal :=
  lsmRow (lin (fun k => max (lin g wl1 bl1 k) zeroW) wl2 bl2)

/-- A GIN convolution's perceptron on `R` rows: row `r` of the result depends on row `r` of `h + agg` only. -/
def layerG {R : Nat} (h agg : FVec Ideal ⟨2, ![R, 128]⟩ .f32) (wa : FVec Ideal ⟨2, ![128, 128]⟩ .f32) (ba : FVec Ideal ⟨1, ![128]⟩ .f32)
    (wb : FVec Ideal ⟨2, ![128, 128]⟩ .f32) (bb : FVec Ideal ⟨1, ![128]⟩ .f32) : FVec Ideal ⟨2, ![R, 128]⟩ .f32 :=
  fun i => mlpRow (fun t => h (ix2 (i 0) t) + agg (ix2 (i 0) t)) (fun a b => wa (ix2 a b)) (fun k => ba (ix1 k))
    (fun a b => wb (ix2 a b)) (fun k => bb (ix1 k)) (i 1)

/-- The read-out on 1024 graphs, row by row. -/
def clsG (g : FVec Ideal ⟨2, ![1024, 128]⟩ .f32) (wl1 : FVec Ideal ⟨2, ![128, 128]⟩ .f32) (bl1 : FVec Ideal ⟨1, ![128]⟩ .f32)
    (wl2 : FVec Ideal ⟨2, ![128, 10]⟩ .f32) (bl2 : FVec Ideal ⟨1, ![10]⟩ .f32) : FVec Ideal ⟨2, ![1024, 10]⟩ .f32 :=
  fun i => clsRow (fun t => g (ix2 (i 0) t)) (fun a b => wl1 (ix2 a b)) (fun k => bl1 (ix1 k))
    (fun a b => wl2 (ix2 a b)) (fun k => bl2 (ix1 k)) (i 1)

/-- A block of rows of `layerG` is `layerG` of the blocks: the value at a row reads that row only. -/
theorem layerG_row {R R' : Nat} (h agg : FVec Ideal ⟨2, ![R, 128]⟩ .f32) (h' agg' : FVec Ideal ⟨2, ![R', 128]⟩ .f32)
    (wa : FVec Ideal ⟨2, ![128, 128]⟩ .f32) (ba : FVec Ideal ⟨1, ![128]⟩ .f32)
    (wb : FVec Ideal ⟨2, ![128, 128]⟩ .f32) (bb : FVec Ideal ⟨1, ![128]⟩ .f32)
    (r : Fin R) (r' : Fin R') (q : Fin 128)
    (hh : ∀ t : Fin 128, h' (ix2 r' t) = h (ix2 r t)) (ha : ∀ t : Fin 128, agg' (ix2 r' t) = agg (ix2 r t)) :
    layerG h' agg' wa ba wb bb (ix2 r' q) = layerG h agg wa ba wb bb (ix2 r q) := by
  show mlpRow (fun t => h' (ix2 r' t) + agg' (ix2 r' t)) _ _ _ _ q = mlpRow (fun t => h (ix2 r t) + agg (ix2 r t)) _ _ _ _ q
  simp only [hh, ha]

end Cert.Spec

end
-- ==== Proof.Take.lean ====
/-
  The host stages of the kernel program between its three regions, as functions of their operands, and the one place
  where it differs from the reference: its row gather fills a row with the not-a-number word when the (wrapped) source
  index falls outside `0 … 99999`, where the reference's gather clamps the index. Where every source index is a node
  number, `0 ≤ s < 100000`, no row is filled and the two gathers are one function (`takeK_eq_gather`); the precondition
  says exactly that of the edge table's first row (`src_in_range`).
-/
import proofs.«417192_j53944789238579_1_alg».proof.Defs
import proofs.«417192_j53944789238579_1_alg».proof.Proof.Gen.KernelIdeal
import proofs.«417192_j53944789238579_1_alg».proof.Proof.Gen.Pre_finite_inputs
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Gen Idealize.ShloMosaic Idealize.ShloMosaic.TcCoe Idealize.SL.Sem

variable {F : FTy → Type} [FloatOps F]

/-- The edges' sources: row 0 of the edge table. -/
def srcOf (e : IVec S2x1600000 32) : IVec S1600000 32 :=
  shapeCast S1600000 (extractStridedSlice S1x1600000 ![0, 0] e slices_S2x1600000_S1x1600000_0_0) shapeCasts_S1x1600000_S1600000

/-- The edges' targets: row 1 of the edge table. -/
def dstOf (e : IVec S2x1600000 32) : IVec S1600000 32 :=
  shapeCast S1600000 (extractStridedSlice S1x1600000 ![1, 0] e slices_S2x1600000_S1x1600000_1_0) shapeCasts_S1x1600000_S1600000

/-- A negative index counts from the end: `s + 100000` where `s < 0`. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped indices as a column of start indices. -/
def idxOf (s : IVec S1600000 32) : IVec S1600000x1 32 :=
  broadcastInDim S1600000x1 ![0] bcast_S1600000_S1600000x1_0 (wrap s)

/-- Per edge: is the wrapped index a row number, `0 ≤ · ≤ 99999`? -/
def inRange (s : IVec S1600000 32) : IVec S1600000 1 :=
  Host.reduce IntOp.andi
    (andi (cmpi .sge (idxOf s) (broadcastInDim S1600000x1 ![] bcast_S_S1600000x1 (constantI S_ 32 0#32)))
      (cmpi .sle (idxOf s) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The kernel program's row gather: row `h[wrap s]` where that index is a row number, the not-a-number word elsewhere. -/
def takeK (h : FVec F S100000x128 .f32) (s : IVec S1600000 32) : FVec F S1600000x128 .f32 :=
  select (broadcastInDim S1600000x128 ![0] bcast_S1600000_S1600000x128_0 (inRange s))
    (Host.gather gather_S100000x128_S1600000x1_S1600000x128_1_0_n_n_0_1_1128 h (idxOf s))
    (broadcastInDim S1600000x128 ![] bcast_S_S1600000x128 (constant S_ .f32 0x7FC00000#32))

/-- Row `i` of the result sums the gathered rows over the edges whose target is `i`. -/
def aggK (h : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstOf e)) (takeK h (srcOf e))

/-- Row `g` of the result sums the rows of `h` whose graph number is `g`. -/
def poolK (h : FVec F S100000x128 .f32) (batch : IVec S100000 32) : FVec F S1024x128 .f32 :=
  Host.scatterAdd scatter_S1024x128_S100000x1_S100000x128_1_0_0_1
    (broadcastInDim S1024x128 ![] bcast_S_S1024x128 (constant S_ .f32 0x00000000#32))
    (broadcastInDim S100000x1 ![0] bcast_S100000_S100000x1_0 batch) h

/-! ### Signed 32-bit comparisons of one word -/

/-- A word that is at least zero is not below zero. -/
theorem slt_zero_of_sge_zero (a : BitVec 32) (h : IntOp.cmpi .sge a 0#32 = 1#1) : IntOp.cmpi .slt a 0#32 = 0#1 := by
  apply ValueIdx.eq_zero_of_ne_one
  intro h'
  unfold IntOp.cmpi at h h'
  simp only [StableHlo.Predicate.ofBool_eq_one_iff, BitVec.slt, BitVec.sle, decide_eq_true_eq] at h h'
  omega

/-- A word below 100000 is at most 99999. -/
theorem sle_of_slt_succ (a : BitVec 32) (h : IntOp.cmpi .slt a 100000#32 = 1#1) : IntOp.cmpi .sle a 99999#32 = 1#1 := by
  unfold IntOp.cmpi at h ⊢
  simp only [StableHlo.Predicate.ofBool_eq_one_iff, BitVec.slt, BitVec.sle, decide_eq_true_eq] at h ⊢
  have e1 : (100000#32 : BitVec 32).toInt = 100000 := by decide
  have e2 : (99999#32 : BitVec 32).toInt = 99999 := by decide
  omega

/-! ### The index column and the range mask where every index is a node number -/

/-- A non-negative index is not wrapped. -/
theorem wrap_apply (s : IVec S1600000 32) (k : S1600000.Idx) (hk : IntOp.cmpi .sge (s k) 0#32 = 1#1) : wrap s k = s k := by
  show Scalar.select (IntOp.cmpi .slt (s k) 0#32) _ (s k) = s k
  rw [slt_zero_of_sge_zero _ hk, ValueIdx.select_zero]

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- Each entry of the index column is an entry of `s`: in range on both sides. -/
theorem inRange_one (s : IVec S1600000 32)
    (hs : ∀ i : S1600000.Idx, IntOp.cmpi .sge (s i) 0#32 = 1#1 ∧ IntOp.cmpi .slt (s i) 100000#32 = 1#1) (k : S1600000.Idx) :
    inRange s k = 1#1 := by
  unfold inRange
  rw [Host.reduce_eq_foldl]
  refine foldl_andi_one _ (fun i => ?_) _
  obtain ⟨k', hk'⟩ : ∃ k' : S1600000.Idx, idxOf s i = wrap s k' := ⟨_, rfl⟩
  show IntOp.andi (IntOp.cmpi .sge (idxOf s i) 0#32) (IntOp.cmpi .sle (idxOf s i) 99999#32) = 1#1
  rw [hk', wrap_apply s k' (hs k').1, (hs k').1, sle_of_slt_succ _ (hs k').2]
  decide

/-- Where every source index is a node number the gather fills no row. -/
theorem takeK_eq_gather (h : FVec F S100000x128 .f32) (s : IVec S1600000 32)
    (hs : ∀ i : S1600000.Idx, IntOp.cmpi .sge (s i) 0#32 = 1#1 ∧ IntOp.cmpi .slt (s i) 100000#32 = 1#1) :
    takeK h s = Host.gather gather_S100000x128_S1600000x1_S1600000x128_1_0_n_n_0_1_1128 h (idxOf s) := by
  funext j
  unfold takeK
  rw [ValueIdx.select_apply]
  have hm : broadcastInDim S1600000x128 ![0] bcast_S1600000_S1600000x128_0 (inRange s) j = 1#1 := inRange_one s hs _
  rw [hm, ValueIdx.select_one]

/-- The precondition's last conjunct: every source index of the edge table is a node number. -/
theorem src_in_range (m : (ℓ : Loc nD τ sig) → Buf (Elt Ideal) ℓ) (hpre : Cert.Pre_KernelIdeal m) (c : Dev nD) (i : S1600000.Idx) :
    IntOp.cmpi .sge (srcOf (m ((c.tc : Thread nD τ).loc main_arg1)) i) 0#32 = 1#1
      ∧ IntOp.cmpi .slt (srcOf (m ((c.tc : Thread nD τ).loc main_arg1)) i) 100000#32 = 1#1 := by
  -- The precondition is a conjunction of one-bit words read at its single index; its last conjunct is the
  -- and-reduction, over every edge, of (source ≥ 0) ∧ (source < 100000).
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at h
  obtain ⟨-, h2⟩ := IntOp.andi_eq_one.1 h
  -- An and-reduction into a single result that is 1 met a 1 at every edge.
  haveI : Subsingleton Cert.Pre_finite_inputs.S_.Idx := ⟨fun a b => funext fun d => d.elim0⟩
  have h3 := Host.reduce_andi_all _ _ _ _ _ h2 i
  -- At edge `i` that 1 is the conjunction of the two comparisons of the source index with the constants.
  obtain ⟨ha, hb⟩ := IntOp.andi_eq_one.1 h3
  exact ⟨ha, hb⟩

end Cert.KernelIdeal.Take

end
-- ==== Proof.Layer0.lean ====
/-
  The first convolution region. Each of its 50 grid points takes rows `2000 t … 2000 t + 1999` of the node features and
  of the neighbour sums, the two weight matrices and biases whole, and writes the same rows of the result. On a block the
  body's value is the perceptron `max(max((h + agg) Wa + ba, 0) Wb + bb, 0)`, whose row `r` reads row `r` of `h` and `agg`
  only; so block `t` of the result is block `t` of the perceptron of the whole arrays, the blocks cover every row, and the
  array the region leaves is that perceptron.
-/
import proofs.«417192_j53944789238579_1_alg».proof.Proof.Gen.KernelIdeal.Frame
import proofs.«417192_j53944789238579_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer0

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The matrix product of a block of rows, read at an entry -/

/-- The left operand is read on the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the summation index. -/
theorem lhs_sum (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the summation index. -/
theorem rhs_sum (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand is read on the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a `[2000, 128]` block with a `[128, 128]` matrix, accumulated from zero, is at entry `(p, q)` the sum
    over `k` of `x (p, k) * w (k, q)`. -/
theorem matmul_at {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_sum _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_sum _ _).trans hk
    | ⟨1, _⟩ => exact rhs_col _ _)
  rw [el, er]

/-- A bias vector laid out as one row and repeated down the block reads, at `(p, q)`, its entry `q`. -/
theorem bias_at (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- One layer on a block of rows: the product with the weights accumulated from zero, plus the bias repeated down the
    block, then the positive part, is at `(p, q)` the positive part of the affine map of row `p` at coordinate `q`. -/
theorem layer_at (u : FVec Ideal S2000x128 .f32) (w : Vec Ideal S128x128 .f32) (b : Vec Ideal S128 .f32) (p : Fin 2000) (q : Fin 128) :
    maximumf (addf (matmul dot_S2000x128_S128x128_S2000x128_1_0_0_1_n_n none (truncf .bf16 u bitsLt_bf16_f32) (truncf .bf16 w bitsLt_bf16_f32) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) (ix2 p q)
      = max (Cert.Spec.lin (fun t => u (ix2 p t)) (fun a c => w (ix2 a c)) (fun j => b (ix1 j)) q) Cert.Spec.zeroW := by
  rw [maximumf_apply, addf_apply, matmul_at, bias_at, broadcast_apply]
  simp only [truncf_apply]
  rfl

/-- The body's value on a block of rows is the perceptron of the block's rows. -/
theorem pay_eq (x0 x1 : Vec Ideal S2000x128 .f32) (x2 : Vec Ideal S128x128 .f32) (x3 : Vec Ideal S128 .f32) (x4 : Vec Ideal S128x128 .f32) (x5 : Vec Ideal S128 .f32) :
    k0_pay1 (F := Ideal) x0 x1 x2 x3 x4 x5 = Cert.Spec.layerG (R := 2000) x0 x1 x2 x3 x4 x5 := by
  funext j
  obtain ⟨p, q, rfl⟩ : ∃ (p : Fin 2000) (q : Fin 128), j = ix2 p q := ⟨j 0, j 1, eq_ix2 j⟩
  unfold k0_pay1
  rw [layer_at]
  simp only [layer_at, addf_apply, shapeCast_self]
  rfl

/-! ## From a block of rows to the array -/

/-- An entry of the body's value on a block whose rows are rows of two arrays, and whose weights are the weight arrays, is
    the perceptron of the arrays at the corresponding row. -/
theorem block_entry (x0 x1 : Vec Ideal S2000x128 .f32) (x2 : Vec Ideal S128x128 .f32) (x3 : Vec Ideal S128 .f32) (x4 : Vec Ideal S128x128 .f32) (x5 : Vec Ideal S128 .f32)
    (H A : Vec Ideal S100000x128 .f32) (W2 : Vec Ideal S128x128 .f32) (B3 : Vec Ideal S128 .f32) (W4 : Vec Ideal S128x128 .f32) (B5 : Vec Ideal S128 .f32)
    (p : Fin 2000) (r : Fin 100000) (q : Fin 128)
    (h0 : ∀ k : Fin 128, x0 (ix2 p k) = H (ix2 r k)) (h1 : ∀ k : Fin 128, x1 (ix2 p k) = A (ix2 r k))
    (h2 : x2 = W2) (h3 : x3 = B3) (h4 : x4 = W4) (h5 : x5 = B5) :
    k0_pay1 (F := Ideal) x0 x1 x2 x3 x4 x5 (ix2 p q) = Cert.Spec.layerG H A W2 B3 W4 B5 (ix2 r q) := by
  subst h2 h3 h4 h5
  rw [pay_eq]
  exact Cert.Spec.layerG_row H A x0 x1 x2 x3 x4 x5 r p q h0 h1

/-- The zero offset of a two-axis block, as a constant function. -/
theorem origin2 : (![0, 0] : Fin 2 → Nat) = fun _ => 0 := funext fun a => by fin_cases a <;> rfl

/-- The zero offset of a one-axis block, as a constant function. -/
theorem origin1 : (![0] : Fin 1 → Nat) = fun _ => 0 := funext fun a => by fin_cases a; rfl

/-- Where each window's block sits at a grid point: the row blocks of the two inputs and of the output are the point's
    number, and every other block index is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What a grid point writes back to the output array is that point's block of rows of the perceptron of the arrays the
    region finds: the block's rows of `h` and `agg` are rows `2000 t + p` of the arrays, and the weights are read whole. -/
theorem flushed_eq (c : Dev nD) (t : Fin cfg0.N) :
    (dat0 (F := Ideal) V c).flushed 6 t = ((cfg0.win 6).blk t).view.read (Elt Ideal)
      (Cert.Spec.layerG (V c main_arg0) (V c main_v7) (V c main_arg3) (V c main_arg4) (V c main_arg5) (V c main_arg6)) := by
  show (cfg0.win 6).cut (grid0.coords t) ((dat0 V c).after 6 t) = _
  rw [after0_6]
  unfold out0_6
  rw [View.canon_unit_zero origin2]
  simp only [View.ld_unit_zero (S := S2000x128) origin2, View.ld_unit_zero (S := S128x128) origin2, View.ld_unit_zero (S := S128) origin1]
  obtain ⟨e00, e01, e10, e11, e20, e21, e30, e40, e41, e50, e60, e61⟩ := idx_facts t
  funext j
  obtain ⟨p, q, rfl⟩ : ∃ (p : Fin 2000) (q : Fin 128), j = ix2 p q := ⟨j 0, j 1, eq_ix2 j⟩
  have ht : t.val < 50 := lt_of_lt_of_eq t.isLt N_0
  have hemb : ((cfg0.win 6).blk t).view.emb (ix2 p q) = ix2 (⟨t.val * 2000 + p.val, by omega⟩ : Fin 100000) q := by
    funext a; apply Fin.ext
    match a with
    | ⟨0, _⟩ => show win0_6.index t (0 : Fin 2) * 2000 + 1 * p.val = t.val * 2000 + p.val; omega
    | ⟨1, _⟩ => show win0_6.index t (1 : Fin 2) * 128 + 1 * q.val = q.val; omega
  show k0_pay1 (iblk0 V c 0 t) (iblk0 V c 1 t) (iblk0 V c 2 t) (iblk0 V c 3 t) (iblk0 V c 4 t) (iblk0 V c 5 t) (ix2 p q)
    = Cert.Spec.layerG (V c main_arg0) (V c main_v7) (V c main_arg3) (V c main_arg4) (V c main_arg5) (V c main_arg6) (((cfg0.win 6).blk t).view.emb (ix2 p q))
  rw [hemb]
  refine block_entry _ _ _ _ _ _ _ _ _ _ _ _ p _ q ?_ ?_ ?_ ?_ ?_ ?_
  · intro k
    show V c main_arg0 (((cfg0.win 0).blk t).view.emb (ix2 p k)) = V c main_arg0 _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    show V c main_v7 (((cfg0.win 1).blk t).view.emb (ix2 p k)) = V c main_v7 _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · funext y
    show V c main_arg3 (((cfg0.win 2).blk t).view.emb y) = V c main_arg3 y
    refine congrArg _ (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg4 (((cfg0.win 3).blk t).view.emb y) = V c main_arg4 y
    refine congrArg _ (funext fun a => Fin.ext ?_)
    match a with
    | ⟨0, _⟩ => show win0_3.index t (0 : Fin 1) * 128 + 1 * (y 0).val = (y 0).val; omega
  · funext y
    show V c main_arg5 (((cfg0.win 4).blk t).view.emb y) = V c main_arg5 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_arg6 (((cfg0.win 5).blk t).view.emb y) = V c main_arg6 y
    refine congrArg _ (funext fun a => Fin.ext ?_)
    match a with
    | ⟨0, _⟩ => show win0_5.index t (0 : Fin 1) * 128 + 1 * (y 0).val = (y 0).val; omega

/-- An index of the output array is in a point's block when each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v8).slice (win0_6.rect t)).set ↔ _
  rw [View.set_slice_whole, Rect.mem_set_unit]
  exact Iff.rfl

/-- Every row of the output array is written: row `r` lies in the block of point `r / 2000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 2000 := ⟨⟨(i 0).val / 2000, lt_of_lt_of_eq (by omega) N_0.symm⟩, rfl⟩
  obtain ⟨-, -, -, -, -, -, -, -, -, -, e60, e61⟩ := idx_facts t
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After region 0 its output array holds the perceptron of `h + agg`, row by row. -/
theorem final (c : Dev nD) : (dat0 (F := Ideal) V c).arrAt 6 cfg0.N
    = Cert.Spec.layerG (V c main_arg0) (V c main_v7) (V c main_arg3) (V c main_arg4) (V c main_arg5) (V c main_arg6) :=
  (dat0 (F := Ideal) V c).arrAt_eq_of_cover 6 _ (fun t _ => flushed_eq V c t) cover

end Cert.KernelIdeal.Layer0

end
-- ==== Proof.Layer1.lean ====
/-
  The second convolution region: the first one's text at the second layer's arrays. Each of its 50 grid points takes rows
  `2000 t … 2000 t + 1999` of the features and of the neighbour sums, the weights and biases whole, and writes the same rows
  of the result; on a block the body's value is the perceptron `max(max((h + agg) Wa + ba, 0) Wb + bb, 0)`, row by row, so
  the array the region leaves is the perceptron of the whole arrays.
-/
import proofs.«417192_j53944789238579_1_alg».proof.Proof.Gen.KernelIdeal.Frame
import proofs.«417192_j53944789238579_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The matrix product of a block of rows, read at an entry -/

/-- The left operand is read on the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

/-- The left operand's column is the summation index. -/
theorem lhs_sum (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q

/-- The right operand's row is the summation index. -/
theorem rhs_sum (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q

/-- The right operand is read on the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product of a `[2000, 128]` block with a `[128, 128]` matrix, accumulated from zero, is at entry `(p, q)` the sum
    over `k` of `x (p, k) * w (k, q)`. -/
theorem matmul_at {φ₁ φ₂ : FTy} (x : FVec Ideal S2000x128 φ₁) (w : FVec Ideal S128x128 φ₂) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_sum _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_sum _ _).trans hk
    | ⟨1, _⟩ => exact rhs_col _ _)
  rw [el, er]

/-- A bias vector laid out as one row and repeated down the block reads, at `(p, q)`, its entry `q`. -/
theorem bias_at (b : FVec Ideal S128 .f32) (p : Fin 2000) (q : Fin 128) :
    broadcastTo S2000x128 (shapeCast S1x128 b shapeCasts_S128_S1x128) broadcasts_S1x128_S2000x128 (ix2 p q) = b (ix1 q) := by
  rw [broadcastTo_1b_ab_apply, shapeCast_a_1a_apply]

/-- One layer on a block of rows: the product with the weights accumulated from zero, plus the bias repeated down the
    block, then the positive part, is at `(p, q)` the positive part of the affine map of row `p` at coordinate `q`. -/
theorem layer_at (u : FVec Ideal S2000x128 .f32) (w : Vec Ideal S128x128 .f32) (b : Vec Ideal S128 .f32) (p : Fin 2000) (q : Fin 128) :
    maximumf (addf (matmul dot_S2000x128_S128x128_S2000x128_1_0_0_1_n_n none (truncf .bf16 u bitsLt_bf16_f32) (truncf .bf16 w bitsLt_bf16_f32) (constant (F := Ideal) S2000x128 .f32 0x00000000#32))
        (broadcastTo S2000x128 (shapeCast S1x128 b shapeCasts_S128_S1x128) broadcasts_S1x128_S2000x128))
      (broadcast S2000x128 (Scalar.ofBits (F := Ideal) .f32 0x00000000#32)) (ix2 p q)
      = max (Cert.Spec.lin (fun t => u (ix2 p t)) (fun a c => w (ix2 a c)) (fun j => b (ix1 j)) q) Cert.Spec.zeroW := by
  rw [maximumf_apply, addf_apply, matmul_at, bias_at, broadcast_apply]
  simp only [truncf_apply]
  rfl

/-- The body's value on a block of rows is the perceptron of the block's rows. -/
theorem pay_eq (x0 x1 : Vec Ideal S2000x128 .f32) (x2 : Vec Ideal S128x128 .f32) (x3 : Vec Ideal S128 .f32) (x4 : Vec Ideal S128x128 .f32) (x5 : Vec Ideal S128 .f32) :
    k1_pay1 (F := Ideal) x0 x1 x2 x3 x4 x5 = Cert.Spec.layerG (R := 2000) x0 x1 x2 x3 x4 x5 := by
  funext j
  obtain ⟨p, q, rfl⟩ : ∃ (p : Fin 2000) (q : Fin 128), j = ix2 p q := ⟨j 0, j 1, eq_ix2 j⟩
  unfold k1_pay1
  rw [layer_at]
  simp only [layer_at, addf_apply, shapeCast_self]
  rfl

/-! ## From a block of rows to the array -/

/-- An entry of the body's value on a block whose rows are rows of two arrays, and whose weights are the weight arrays, is
    the perceptron of the arrays at the corresponding row. -/
theorem block_entry (x0 x1 : Vec Ideal S2000x128 .f32) (x2 : Vec Ideal S128x128 .f32) (x3 : Vec Ideal S128 .f32) (x4 : Vec Ideal S128x128 .f32) (x5 : Vec Ideal S128 .f32)
    (H A : Vec Ideal S100000x128 .f32) (W2 : Vec Ideal S128x128 .f32) (B3 : Vec Ideal S128 .f32) (W4 : Vec Ideal S128x128 .f32) (B5 : Vec Ideal S128 .f32)
    (p : Fin 2000) (r : Fin 100000) (q : Fin 128)
    (h0 : ∀ k : Fin 128, x0 (ix2 p k) = H (ix2 r k)) (h1 : ∀ k : Fin 128, x1 (ix2 p k) = A (ix2 r k))
    (h2 : x2 = W2) (h3 : x3 = B3) (h4 : x4 = W4) (h5 : x5 = B5) :
    k1_pay1 (F := Ideal) x0 x1 x2 x3 x4 x5 (ix2 p q) = Cert.Spec.layerG H A W2 B3 W4 B5 (ix2 r q) := by
  subst h2 h3 h4 h5
  rw [pay_eq]
  exact Cert.Spec.layerG_row H A x0 x1 x2 x3 x4 x5 r p q h0 h1

/-- The zero offset of a two-axis block, as a constant function. -/
theorem origin2 : (![0, 0] : Fin 2 → Nat) = fun _ => 0 := funext fun a => by fin_cases a <;> rfl

/-- The zero offset of a one-axis block, as a constant function. -/
theorem origin1 : (![0] : Fin 1 → Nat) = fun _ => 0 := funext fun a => by fin_cases a; rfl

/-- Where each window's block sits at a grid point: the row blocks of the two inputs and of the output are the point's
    number, and every other block index is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What a grid point writes back to the output array is that point's block of rows of the perceptron of the arrays the
    region finds: the block's rows of `h` and `agg` are rows `2000 t + p` of the arrays, and the weights are read whole. -/
theorem flushed_eq (c : Dev nD) (t : Fin cfg1.N) :
    (dat1 (F := Ideal) V c).flushed 6 t = ((cfg1.win 6).blk t).view.read (Elt Ideal)
      (Cert.Spec.layerG (V c main_v8) (V c main_v12) (V c main_arg7) (V c main_arg8) (V c main_arg9) (V c main_arg10)) := by
  show (cfg1.win 6).cut (grid1.coords t) ((dat1 V c).after 6 t) = _
  rw [after1_6]
  unfold out1_6
  rw [View.canon_unit_zero origin2]
  simp only [View.ld_unit_zero (S := S2000x128) origin2, View.ld_unit_zero (S := S128x128) origin2, View.ld_unit_zero (S := S128) origin1]
  obtain ⟨e00, e01, e10, e11, e20, e21, e30, e40, e41, e50, e60, e61⟩ := idx_facts t
  funext j
  obtain ⟨p, q, rfl⟩ : ∃ (p : Fin 2000) (q : Fin 128), j = ix2 p q := ⟨j 0, j 1, eq_ix2 j⟩
  have ht : t.val < 50 := lt_of_lt_of_eq t.isLt N_1
  have hemb : ((cfg1.win 6).blk t).view.emb (ix2 p q) = ix2 (⟨t.val * 2000 + p.val, by omega⟩ : Fin 100000) q := by
    funext a; apply Fin.ext
    match a with
    | ⟨0, _⟩ => show win1_6.index t (0 : Fin 2) * 2000 + 1 * p.val = t.val * 2000 + p.val; omega
    | ⟨1, _⟩ => show win1_6.index t (1 : Fin 2) * 128 + 1 * q.val = q.val; omega
  show k1_pay1 (iblk1 V c 0 t) (iblk1 V c 1 t) (iblk1 V c 2 t) (iblk1 V c 3 t) (iblk1 V c 4 t) (iblk1 V c 5 t) (ix2 p q)
    = Cert.Spec.layerG (V c main_v8) (V c main_v12) (V c main_arg7) (V c main_arg8) (V c main_arg9) (V c main_arg10) (((cfg1.win 6).blk t).view.emb (ix2 p q))
  rw [hemb]
  refine block_entry _ _ _ _ _ _ _ _ _ _ _ _ p _ q ?_ ?_ ?_ ?_ ?_ ?_
  · intro k
    show V c main_v8 (((cfg1.win 0).blk t).view.emb (ix2 p k)) = V c main_v8 _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · intro k
    show V c main_v12 (((cfg1.win 1).blk t).view.emb (ix2 p k)) = V c main_v12 _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · funext y
    show V c main_arg7 (((cfg1.win 2).blk t).view.emb y) = V c main_arg7 y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_arg8 (((cfg1.win 3).blk t).view.emb y) = V c main_arg8 y
    refine congrArg _ (funext fun a => Fin.ext ?_)
    match a with
    | ⟨0, _⟩ => show win1_3.index t (0 : Fin 1) * 128 + 1 * (y 0).val = (y 0).val; omega
  · funext y
    show V c main_arg9 (((cfg1.win 4).blk t).view.emb y) = V c main_arg9 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_arg10 (((cfg1.win 5).blk t).view.emb y) = V c main_arg10 y
    refine congrArg _ (funext fun a => Fin.ext ?_)
    match a with
    | ⟨0, _⟩ => show win1_5.index t (0 : Fin 1) * 128 + 1 * (y 0).val = (y 0).val; omega

/-- An index of the output array is in a point's block when each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v13).slice (win1_6.rect t)).set ↔ _
  rw [View.set_slice_whole, Rect.mem_set_unit]
  exact Iff.rfl

/-- Every row of the output array is written: row `r` lies in the block of point `r / 2000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 2000 := ⟨⟨(i 0).val / 2000, lt_of_lt_of_eq (by omega) N_1.symm⟩, rfl⟩
  obtain ⟨-, -, -, -, -, -, -, -, -, -, e60, e61⟩ := idx_facts t
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After region 1 its output array holds the perceptron of `h + agg`, row by row. -/
theorem final (c : Dev nD) : (dat1 (F := Ideal) V c).arrAt 6 cfg1.N
    = Cert.Spec.layerG (V c main_v8) (V c main_v12) (V c main_arg7) (V c main_arg8) (V c main_arg9) (V c main_arg10) :=
  (dat1 (F := Ideal) V c).arrAt_eq_of_cover 6 _ (fun t _ => flushed_eq V c t) cover

end Cert.KernelIdeal.Layer1

end
-- ==== Proof.Cls.lean ====
/-
  The read-out region: one grid point, every array whole. The body's value at row `p` is the shifted log-softmax of
  `max(g_p Wl1 + bl1, 0) Wl2 + bl2`: the row's maximum is a fold of `max` from minus infinity, the normaliser the
  logarithm of the row's sum of exponentials of the shifted entries. The one block is the whole array, so the array the
  region leaves is that function of the pooled features.
-/
import proofs.«417192_j53944789238579_1_alg».proof.Proof.Gen.KernelIdeal.Frame
import proofs.«417192_j53944789238579_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Cls

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

open scoped BigOperators

/-! ## The two matrix products

Each product has no batch axis: it contracts the left operand's axis 1 with the right operand's axis 0. At output index
`(p, q)` and contraction coordinate `k` the operands are therefore read at `(p, k)` and `(k, q)`; the four facts
below say so axis by axis, and the product into a zero accumulator is then the plain sum over `k`. -/

theorem lhsH_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsH_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsH_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsH_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The first product, into a zero accumulator, is `∑ k, a (p, k) * b (k, q)`. -/
theorem matmulH_apply (a : FVec Ideal S1024x128 .bf16) (b : FVec Ideal S128x128 .bf16) (p : Fin 1024) (q : Fin 128) :
    matmul dot_S1024x128_S128x128_S1024x128_1_0_0_1_n_n none a b (constant (F := Ideal) S1024x128 .f32 0x00000000#32) (ix2 p q)
      = ∑ k : Fin 128, a (ix2 p k) * b (ix2 k q) := by
  refine (Ideal.matmul_constant_zero_apply dot_S1024x128_S128x128_S1024x128_1_0_0_1_n_n none a b (ix2 p q)).trans ?_
  rw [← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhsH_0 _ _
    | ⟨1, _⟩ => exact (lhsH_1 _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhsH_0 _ _).trans hk
    | ⟨1, _⟩ => exact rhsH_1 _ _)
  rw [el, er]

theorem lhsZ_0 (i : S1024x10.Idx) (q : dot_S1024x128_S128x10_S1024x10_1_0_0_1_n_n.contr.Idx) :
    (dot_S1024x128_S128x10_S1024x10_1_0_0_1_n_n.lhsIdx i q 0).val = (i 0).val := by
  unfold DotDims.lhsIdx
  rw [dif_neg (show ¬(0 : Fin S1024x128.rank) ∈ dot_S1024x128_S128x10_S1024x10_1_0_0_1_n_n.lhsBatch by decide), dif_pos (show (0 : Fin S1024x128.rank) ∈ dot_S1024x128_S128x10_S1024x10_1_0_0_1_n_n.lhsNonContracting by decide)]
  rfl
theorem lhsZ_1 (i : S1024x10.Idx) (q : dot_S1024x128_S128x10_S1024x10_1_0_0_1_n_n.contr.Idx) :
    (dot_S1024x128_S128x10_S1024x10_1_0_0_1_n_n.lhsIdx i q 1).val = (q ⟨0, by decide⟩).val :=
  dot_S1024x128_S128x10_S1024x10_1_0_0_1_n_n.lhsIdx_val_of_single rfl i q
theorem rhsZ_0 (i : S1024x10.Idx) (q : dot_S1024x128_S128x10_S1024x10_1_0_0_1_n_n.contr.Idx) :
    (dot_S1024x128_S128x10_S1024x10_1_0_0_1_n_n.rhsIdx i q 0).val = (q ⟨0, by decide⟩).val :=
  dot_S1024x128_S128x10_S1024x10_1_0_0_1_n_n.rhsIdx_val_of_single rfl i q
theorem rhsZ_1 (i : S1024x10.Idx) (q : dot_S1024x128_S128x10_S1024x10_1_0_0_1_n_n.contr.Idx) :
    (dot_S1024x128_S128x10_S1024x10_1_0_0_1_n_n.rhsIdx i q 1).val = (i 1).val := by
  unfold DotDims.rhsIdx
  rw [dif_neg (show ¬(1 : Fin S128x10.rank) ∈ dot_S1024x128_S128x10_S1024x10_1_0_0_1_n_n.rhsBatch by decide), dif_pos (show (1 : Fin S128x10.rank) ∈ dot_S1024x128_S128x10_S1024x10_1_0_0_1_n_n.rhsNonContracting by decide)]
  rfl

/-- The second product, into a zero accumulator, is `∑ k, a (p, k) * b (k, q)`. -/
theorem matmulZ_apply (a : FVec Ideal S1024x128 .bf16) (b : FVec Ideal S128x10 .bf16) (p : Fin 1024) (q : Fin 10) :
    matmul dot_S1024x128_S128x10_S1024x10_1_0_0_1_n_n none a b (constant (F := Ideal) S1024x10 .f32 0x00000000#32) (ix2 p q)
      = ∑ k : Fin 128, a (ix2 p k) * b (ix2 k q) := by
  refine (Ideal.matmul_constant_zero_apply dot_S1024x128_S128x10_S1024x10_1_0_0_1_n_n none a b (ix2 p q)).trans ?_
  rw [← Equiv.sum_comp (contrEquiv1 dot_S1024x128_S128x10_S1024x10_1_0_0_1_n_n 128 rfl rfl).symm]
  refine Finset.sum_congr rfl fun k _ => ?_
  have hk := contrEquiv1_symm_val dot_S1024x128_S128x10_S1024x10_1_0_0_1_n_n 128 rfl rfl k
  have el : dot_S1024x128_S128x10_S1024x10_1_0_0_1_n_n.lhsIdx (ix2 p q) ((contrEquiv1 dot_S1024x128_S128x10_S1024x10_1_0_0_1_n_n 128 rfl rfl).symm k) = ix2 p k := funext fun a => Fin.ext (by
    match a with
    | ⟨0, _⟩ => exact lhsZ_0 _ _
    | ⟨1, _⟩ => exact (lhsZ_1 _ _).trans hk)
  have er : dot_S1024x128_S128x10_S1024x10_1_0_0_1_n_n.rhsIdx (ix2 p q) ((contrEquiv1 dot_S1024x128_S128x10_S1024x10_1_0_0_1_n_n 128 rfl rfl).symm k) = ix2 k q := funext fun a => Fin.ext (by
    match a with
    | ⟨0, _⟩ => exact (rhsZ_0 _ _).trans hk
    | ⟨1, _⟩ => exact rhsZ_1 _ _)
  rw [el, er]

/-! ## Layout operations the read-out uses

A row vector `[k]` is viewed as `[1, k]` and repeated down the rows; a column of per-row values `[R]` is viewed as
`[R, 1]` and repeated along each row. -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting coordinate `t` on the reduced axis of a row index gives `(p, t)`. -/
theorem lift_row (p : Fin 1024) (t : Fin 10) : reduces_S1024x10_S1024.lift (ix1 p) t = ix2 p t :=
  funext fun a => Fin.ext (by
    match a with
    | ⟨0, _⟩ => rfl
    | ⟨1, _⟩ => rfl)

/-- The exponential of a vector is taken entry by entry. -/
theorem exp_apply {s : Shape} {φ : FTy} (a : FVec Ideal s φ) (i : s.Idx) : exp a i = Ideal.exp (a i) := rfl

/-- The logarithm of a vector is taken entry by entry. -/
theorem log_apply {s : Shape} {φ : FTy} (a : FVec Ideal s φ) (i : s.Idx) : log a i = Ideal.log (a i) := rfl

/-! ## The read-out, stage by stage

The payload is four stages composed: the hidden layer `max(g·Wl1 + bl1, 0)`, the logits `h·Wl2 + bl2`, each row's
maximum repeated along the row, and the logarithm of each row's sum repeated along the row. Each stage is named as the
kernel spells it and then read at an index `(p, q)`. -/

/-- The hidden layer as the kernel spells it: product into a zero accumulator, the bias row repeated down the rows, the
    positive part. (The narrowing of the operands before the product is the identity on extended reals.) -/
def hidV (x0 : Vec Ideal S1024x128 .f32) (x1 : Vec Ideal S128x128 .f32) (x2 : Vec Ideal S128 .f32) : FVec Ideal S1024x128 .f32 :=
  maximumf
    (addf
      (matmul dot_S1024x128_S128x128_S1024x128_1_0_0_1_n_n none
        (truncf .bf16 (shapeCast S1024x128 x0 shapeCasts_S1024x128_S1024x128) bitsLt_bf16_f32) (truncf .bf16 x1 bitsLt_bf16_f32)
        (constant S1024x128 .f32 0x00000000#32))
      (broadcastTo S1024x128 (shapeCast S1x128 x2 shapeCasts_S128_S1x128) broadcasts_S1x128_S1024x128))
    (broadcast S1024x128 (Scalar.ofBits .f32 0x00000000#32))

/-- The hidden layer at `(p, k)`: the positive part of the affine map of row `p`. -/
theorem hidV_apply (x0 : Vec Ideal S1024x128 .f32) (x1 : Vec Ideal S128x128 .f32) (x2 : Vec Ideal S128 .f32) (p : Fin 1024) (k : Fin 128) :
    hidV x0 x1 x2 (ix2 p k)
      = max (Cert.Spec.lin (fun t => x0 (ix2 p t)) (fun a b => x1 (ix2 a b)) (fun j => x2 (ix1 j)) k) Cert.Spec.zeroW := by
  unfold hidV Cert.Spec.lin
  rw [maximumf_apply, addf_apply, broadcast_apply, matmulH_apply, broadcastTo_1b_ab_apply, shapeCast_a_1a_apply]
  simp only [truncf_apply, shapeCast_self]
  rfl

/-- The logits as the kernel spells them: the second product into a zero accumulator plus the bias row repeated down the rows. -/
def logitV (h : FVec Ideal S1024x128 .f32) (x3 : Vec Ideal S128x10 .f32) (x4 : Vec Ideal S10 .f32) : FVec Ideal S1024x10 .f32 :=
  addf
    (matmul dot_S1024x128_S128x10_S1024x10_1_0_0_1_n_n none (truncf .bf16 h bitsLt_bf16_f32) (truncf .bf16 x3 bitsLt_bf16_f32)
      (constant S1024x10 .f32 0x00000000#32))
    (broadcastTo S1024x10 (shapeCast S1x10 x4 shapeCasts_S10_S1x10) broadcasts_S1x10_S1024x10)

/-- The logits at `(p, q)`: the affine map of row `p` of the hidden layer. -/
theorem logitV_apply (h : FVec Ideal S1024x128 .f32) (x3 : Vec Ideal S128x10 .f32) (x4 : Vec Ideal S10 .f32) (p : Fin 1024) (q : Fin 10) :
    logitV h x3 x4 (ix2 p q)
      = Cert.Spec.lin (fun k => h (ix2 p k)) (fun a b => x3 (ix2 a b)) (fun j => x4 (ix1 j)) q := by
  unfold logitV Cert.Spec.lin
  rw [addf_apply, matmulZ_apply, broadcastTo_1b_ab_apply, shapeCast_a_1a_apply]
  simp only [truncf_apply]

/-- Each row's maximum, started from minus infinity, kept as a column and repeated along the row. -/
def rowMaxV (z : FVec Ideal S1024x10 .f32) : FVec Ideal S1024x10 .f32 :=
  broadcastTo S1024x10
    (shapeCast S1024x1 (multiReduction .maximumf [1] S1024 z 0xFF800000#32 reduces_S1024x10_S1024 (.inl rfl) rfl) shapeCasts_S1024_S1024x1)
    broadcasts_S1024x1_S1024x10

/-- At `(p, q)` it is the maximum of row `p`, whatever `q`. -/
theorem rowMaxV_apply (z : FVec Ideal S1024x10 .f32) (p : Fin 1024) (q : Fin 10) :
    rowMaxV z (ix2 p q) = (Finset.univ : Finset (Fin 10)).fold max Cert.Spec.negInfW (fun t => z (ix2 p t)) := by
  unfold rowMaxV
  rw [broadcastTo_a1_ab_apply, shapeCast_a_a1_apply]
  refine (Ideal.multiReduction_maximumf_single z 0xFF800000#32 reduces_S1024x10_S1024 (.inl rfl) rfl (ix1 p)).trans ?_
  have e : (z ∘ reduces_S1024x10_S1024.lift (ix1 p)) = fun t : Fin 10 => z (ix2 p t) :=
    funext fun t => congrArg z (lift_row p t)
  exact congrArg (fun f : Fin 10 → EReal => (Finset.univ : Finset (Fin 10)).fold max Cert.Spec.negInfW f) e

/-- The logarithm of each row's sum, kept as a column and repeated along the row. -/
def rowLogSumV (e : FVec Ideal S1024x10 .f32) : FVec Ideal S1024x10 .f32 :=
  broadcastTo S1024x10
    (log (shapeCast S1024x1 (multiReduction .add [1] S1024 e 0x00000000#32 reduces_S1024x10_S1024 (.inl rfl) rfl) shapeCasts_S1024_S1024x1))
    broadcasts_S1024x1_S1024x10

/-- At `(p, q)` it is the logarithm of the sum of row `p`, whatever `q`. -/
theorem rowLogSumV_apply (e : FVec Ideal S1024x10 .f32) (p : Fin 1024) (q : Fin 10) :
    rowLogSumV e (ix2 p q) = Ideal.log (∑ t : Fin 10, e (ix2 p t)) := by
  unfold rowLogSumV
  rw [broadcastTo_a1_ab_apply, log_apply, shapeCast_a_a1_apply]
  refine congrArg Ideal.log ?_
  refine (Ideal.multiReduction_add_single e 0x00000000#32 reduces_S1024x10_S1024 (.inl rfl) rfl (ix1 p)).trans ?_
  exact Finset.sum_congr rfl fun t _ => congrArg e (lift_row p t)

/-- The payload is the four stages composed: the logits, shifted by their row maximum, minus the logarithm of the row sum
    of the shifted logits' exponentials. -/
theorem pay_stages (x0 : Vec Ideal S1024x128 .f32) (x1 : Vec Ideal S128x128 .f32) (x2 : Vec Ideal S128 .f32)
    (x3 : Vec Ideal S128x10 .f32) (x4 : Vec Ideal S10 .f32) :
    k2_pay1 (F := Ideal) x0 x1 x2 x3 x4
      = subf (subf (logitV (hidV x0 x1 x2) x3 x4) (rowMaxV (logitV (hidV x0 x1 x2) x3 x4)))
          (rowLogSumV (exp (subf (logitV (hidV x0 x1 x2) x3 x4) (rowMaxV (logitV (hidV x0 x1 x2) x3 x4))))) := rfl

/-- The payload is the specification: every entry `(p, q)` is entry `q` of the log-softmax of row `p`'s logits. -/
theorem pay_eq (x0 : Vec Ideal S1024x128 .f32) (x1 : Vec Ideal S128x128 .f32) (x2 : Vec Ideal S128 .f32)
    (x3 : Vec Ideal S128x10 .f32) (x4 : Vec Ideal S10 .f32) :
    k2_pay1 (F := Ideal) x0 x1 x2 x3 x4 = Cert.Spec.clsG x0 x1 x2 x3 x4 := by
  funext i
  obtain ⟨p, q, rfl⟩ : ∃ (p : Fin 1024) (q : Fin 10), i = ix2 p q := ⟨i 0, i 1, eq_ix2 i⟩
  rw [pay_stages]
  show _ = Cert.Spec.lsmRow (Cert.Spec.lin (fun k => max (Cert.Spec.lin (fun t => x0 (ix2 p t)) (fun a b => x1 (ix2 a b)) (fun j => x2 (ix1 j)) k) Cert.Spec.zeroW) (fun a b => x3 (ix2 a b)) (fun j => x4 (ix1 j))) q
  unfold Cert.Spec.lsmRow
  rw [subf_apply, subf_apply, rowMaxV_apply, rowLogSumV_apply]
  have hz : ∀ t : Fin 10, logitV (hidV x0 x1 x2) x3 x4 (ix2 p t)
      = Cert.Spec.lin (fun k => max (Cert.Spec.lin (fun t => x0 (ix2 p t)) (fun a b => x1 (ix2 a b)) (fun j => x2 (ix1 j)) k) Cert.Spec.zeroW) (fun a b => x3 (ix2 a b)) (fun j => x4 (ix1 j)) t := by
    intro t
    rw [logitV_apply]
    simp only [hidV_apply]
  have he : ∀ t : Fin 10, exp (subf (logitV (hidV x0 x1 x2) x3 x4) (rowMaxV (logitV (hidV x0 x1 x2) x3 x4))) (ix2 p t)
      = Ideal.exp (logitV (hidV x0 x1 x2) x3 x4 (ix2 p t) - (Finset.univ : Finset (Fin 10)).fold max Cert.Spec.negInfW (fun s => logitV (hidV x0 x1 x2) x3 x4 (ix2 p s))) := by
    intro t
    rw [exp_apply, subf_apply, rowMaxV_apply]
  simp only [he, hz]

/-! ## From the one block to the array

The grid has a single point, and at that point every window names block `(0, …, 0)` of its array with the array's own
extents: each input block is its whole array, and the output block is the whole output array. -/

theorem origin2 : (![0, 0] : Fin 2 → Nat) = fun _ => 0 := funext fun a => by fin_cases a <;> rfl

theorem origin1 : (![0] : Fin 1 → Nat) = fun _ => 0 := funext fun a => by fin_cases a <;> rfl

/-- The block index of every window is zero on every axis, at every point of the grid. -/
theorem idx_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0
    ∧ win2_5.index t (0 : Fin 2) = 0 ∧ win2_5.index t (1 : Fin 2) = 0 :=
  (by decide +kernel : ∀ t : Fin grid2.N, _)

/-- The pooled features' block at a point, at its literal type. -/
abbrev gBlk (c : Dev nD) (t : Fin cfg2.N) : Vec Ideal S1024x128 .f32 := iblk2 V c 0 t
/-- The first weight matrix's block. -/
abbrev wl1Blk (c : Dev nD) (t : Fin cfg2.N) : Vec Ideal S128x128 .f32 := iblk2 V c 1 t
/-- The first bias's block. -/
abbrev bl1Blk (c : Dev nD) (t : Fin cfg2.N) : Vec Ideal S128 .f32 := iblk2 V c 2 t
/-- The second weight matrix's block. -/
abbrev wl2Blk (c : Dev nD) (t : Fin cfg2.N) : Vec Ideal S128x10 .f32 := iblk2 V c 3 t
/-- The second bias's block. -/
abbrev bl2Blk (c : Dev nD) (t : Fin cfg2.N) : Vec Ideal S10 .f32 := iblk2 V c 4 t

/-- The pooled features' block is the whole array: a block's coordinate is index × size + the coordinate inside. -/
theorem gBlk_eq (c : Dev nD) (t : Fin cfg2.N) : gBlk V c t = V c main_v16 := by
  obtain ⟨e0, e1, -⟩ := idx_zero t
  funext y
  show V c main_v16 (((cfg2.win 0).blk t).view.emb y) = V c main_v16 y
  have h : ((cfg2.win 0).blk t).view.emb y = y := by
    funext a; apply Fin.ext
    match a with
    | ⟨0, _⟩ => show win2_0.index t (0 : Fin 2) * 1024 + 1 * (y 0).val = (y 0).val; omega
    | ⟨1, _⟩ => show win2_0.index t (1 : Fin 2) * 128 + 1 * (y 1).val = (y 1).val; omega
  rw [h]

theorem wl1Blk_eq (c : Dev nD) (t : Fin cfg2.N) : wl1Blk V c t = V c main_arg11 := by
  obtain ⟨-, -, e0, e1, -⟩ := idx_zero t
  funext y
  show V c main_arg11 (((cfg2.win 1).blk t).view.emb y) = V c main_arg11 y
  have h : ((cfg2.win 1).blk t).view.emb y = y := by
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  rw [h]

theorem bl1Blk_eq (c : Dev nD) (t : Fin cfg2.N) : bl1Blk V c t = V c main_arg12 := by
  obtain ⟨-, -, -, -, e0, -⟩ := idx_zero t
  funext y
  show V c main_arg12 (((cfg2.win 2).blk t).view.emb y) = V c main_arg12 y
  have h : ((cfg2.win 2).blk t).view.emb y = y := by
    funext a; apply Fin.ext
    match a with
    | ⟨0, _⟩ => show win2_2.index t (0 : Fin 1) * 128 + 1 * (y 0).val = (y 0).val; omega
  rw [h]

theorem wl2Blk_eq (c : Dev nD) (t : Fin cfg2.N) : wl2Blk V c t = V c main_arg13 := by
  obtain ⟨-, -, -, -, -, e0, e1, -⟩ := idx_zero t
  funext y
  show V c main_arg13 (((cfg2.win 3).blk t).view.emb y) = V c main_arg13 y
  have h : ((cfg2.win 3).blk t).view.emb y = y := by
    funext a; apply Fin.ext
    match a with
    | ⟨0, _⟩ => show win2_3.index t (0 : Fin 2) * 128 + 1 * (y 0).val = (y 0).val; omega
    | ⟨1, _⟩ => show win2_3.index t (1 : Fin 2) * 10 + 1 * (y 1).val = (y 1).val; omega
  rw [h]

theorem bl2Blk_eq (c : Dev nD) (t : Fin cfg2.N) : bl2Blk V c t = V c main_arg14 := by
  obtain ⟨-, -, -, -, -, -, -, e0, -⟩ := idx_zero t
  funext y
  show V c main_arg14 (((cfg2.win 4).blk t).view.emb y) = V c main_arg14 y
  have h : ((cfg2.win 4).blk t).view.emb y = y := by
    funext a; apply Fin.ext
    match a with
    | ⟨0, _⟩ => show win2_4.index t (0 : Fin 1) * 10 + 1 * (y 0).val = (y 0).val; omega
  rw [h]

/-- What the point writes back is its block of the read-out of the arrays as the region finds them. -/
theorem flushed_eq (c : Dev nD) (t : Fin cfg2.N) :
    (dat2 (F := Ideal) V c).flushed 5 t
      = ((cfg2.win 5).blk t).view.read (Elt Ideal)
          (Cert.Spec.clsG (V c main_v16) (V c main_arg11) (V c main_arg12) (V c main_arg13) (V c main_arg14)) := by
  show (cfg2.win 5).cut (grid2.coords t) ((dat2 V c).after 5 t) = _
  rw [after2_5]
  unfold out2_5
  rw [View.canon_unit_zero origin2]
  simp only [View.ld_unit_zero (S := S1024x128) origin2, View.ld_unit_zero (S := S128x128) origin2,
    View.ld_unit_zero (S := S128) origin1, View.ld_unit_zero (S := S128x10) origin2, View.ld_unit_zero (S := S10) origin1]
  show (cfg2.win 5).cut (grid2.coords t)
      (k2_pay1 (F := Ideal) (gBlk V c t) (wl1Blk V c t) (bl1Blk V c t) (wl2Blk V c t) (bl2Blk V c t)) = _
  rw [pay_eq, gBlk_eq, wl1Blk_eq, bl1Blk_eq, wl2Blk_eq, bl2Blk_eq]
  obtain ⟨-, -, -, -, -, -, -, -, e0, e1⟩ := idx_zero t
  funext j
  show Cert.Spec.clsG (V c main_v16) (V c main_arg11) (V c main_arg12) (V c main_arg13) (V c main_arg14) j
    = Cert.Spec.clsG (V c main_v16) (V c main_arg11) (V c main_arg12) (V c main_arg13) (V c main_arg14)
        (((cfg2.win 5).blk t).view.emb j)
  have h : ((cfg2.win 5).blk t).view.emb j = j := by
    funext a; apply Fin.ext
    match a with
    | ⟨0, _⟩ => show win2_5.index t (0 : Fin 2) * 1024 + 1 * (j 0).val = (j 0).val; omega
    | ⟨1, _⟩ => show win2_5.index t (1 : Fin 2) * 10 + 1 * (j 1).val = (j 1).val; omega
  rw [h]

/-- An index of the output array is in the point's block iff each coordinate is in the block's range on its axis. -/
theorem mem_blk (t : Fin cfg2.N) (i : S1024x10.Idx) :
    i ∈ ((cfg2.win 5).blk t).view.set
      ↔ ∀ a : Fin 2, win2_5.index t a * S1024x10.size a ≤ (i a).val
          ∧ (i a).val < win2_5.index t a * S1024x10.size a + S1024x10.size a := by
  show i ∈ ((View.whole main_v17).slice (win2_5.rect t)).set ↔ _
  rw [View.set_slice_whole, Rect.mem_set_unit]
  exact Iff.rfl

/-- Every index of the output array lies in the one point's block. -/
theorem covered (i : S1024x10.Idx) :
    ∃ t : Fin cfg2.N, (cfg2.win 5).flush t = true ∧ i ∈ ((cfg2.win 5).blk t).view.set := by
  obtain ⟨-, -, -, -, -, -, -, -, e0, e1⟩ := idx_zero t2_0
  have hi0 : (i 0).val < 1024 := (i 0).isLt
  have hi1 : (i 1).val < 10 := (i 1).isLt
  refine ⟨t2_0, flush2_5 t2_0, ?_⟩
  rw [mem_blk]
  intro a
  match a with
  | ⟨0, _⟩ =>
    show win2_5.index t2_0 (0 : Fin 2) * 1024 ≤ (i 0).val ∧ (i 0).val < win2_5.index t2_0 (0 : Fin 2) * 1024 + 1024
    omega
  | ⟨1, _⟩ =>
    show win2_5.index t2_0 (1 : Fin 2) * 10 ≤ (i 1).val ∧ (i 1).val < win2_5.index t2_0 (1 : Fin 2) * 10 + 10
    omega

/-- After region 2 its output array holds the read-out of the pooled features, row by row. -/
theorem final (c : Dev nD) : (dat2 (F := Ideal) V c).arrAt 5 cfg2.N
    = Cert.Spec.clsG (V c main_v16) (V c main_arg11) (V c main_arg12) (V c main_arg13) (V c main_arg14) := by
  exact (dat2 (F := Ideal) V c).arrAt_eq_of_cover 5
    (Cert.Spec.clsG (V c main_v16) (V c main_arg11) (V c main_arg12) (V c main_arg13) (V c main_arg14))
    (fun t _ => flushed_eq V c t) covered

end Cert.KernelIdeal.Cls

end
-- ==== Proof.KChain.lean ====
/-
  The kernel program's result as one composition of its stages. Between the launch and the return the program's buffers
  pass nine boundaries (a stretch of host operations, or a region, between two of them). Reading the result buffer back
  through them: the read-out region leaves the read-out of the pooled features; the pooled features are the scatter-add
  of the second convolution's rows by graph; each convolution region leaves the perceptron of `h + agg`, where `agg` is
  the scatter-add, by target, of the rows gathered at the sources; and a buffer no stretch writes keeps its contents.
-/
import proofs.«417192_j53944789238579_1_alg».proof.Proof.Gen.KernelIdeal.Frame
import proofs.«417192_j53944789238579_1_alg».proof.Proof.Spec
import proofs.«417192_j53944789238579_1_alg».proof.Proof.Take
import proofs.«417192_j53944789238579_1_alg».proof.Proof.Layer0
import proofs.«417192_j53944789238579_1_alg».proof.Proof.Layer1
import proofs.«417192_j53944789238579_1_alg».proof.Proof.Cls

set_option maxRecDepth 16384

noncomputable section

namespace Cert.KernelIdeal.KChain

open Cert.KernelIdeal Cert.KernelIdeal.Gen Cert.KernelIdeal.Take Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- A stretch of host operations leaves a buffer none of them writes as it was. -/
local macro "unwritten" : tactic => `(tactic| (
  refine StableHlo.after_of_forall_not_mem _ _ (List.forall_iff_forall_mem.mp ?_)
  simp only [hostOps0, hostOps0_1, hostOps0_2, hostOps1, hostOps1_1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Contents carried to a typed reference's buffer and back are unchanged. -/
theorem ofBuf_toBuf {T : BufTy} (x : StableHlo.TRef sig T) (v : T.Contents (Elt Ideal)) : x.ofBuf (x.toBuf v) = v := by
  obtain ⟨r, h, _, _⟩ := x; subst h; rfl

/-- A buffer's contents read at a typed reference's type and carried back are unchanged. -/
theorem toBuf_ofBuf {T : BufTy} (x : StableHlo.TRef sig T) (v : x.ref.ty.Contents (Elt Ideal)) : x.toBuf (x.ofBuf v) = v := by
  obtain ⟨r, h, _, _⟩ := x; subst h; rfl

theorem ofBuf_v1 (v : main_v1.ty.Contents (Elt Ideal)) :
    (StableHlo.TRef.of main_v1 : StableHlo.TRef sig ⟨S1600000, .i32⟩).ofBuf v = v := rfl
theorem ofBuf_arg0 (v : main_arg0.ty.Contents (Elt Ideal)) :
    (StableHlo.TRef.of main_arg0 : StableHlo.TRef sig ⟨S100000x128, .f32⟩).ofBuf v = v := rfl
theorem toBuf_v4 (v : (⟨S1600000x128, .f32⟩ : BufTy).Contents (Elt Ideal)) :
    (StableHlo.TRef.of main_v4 : StableHlo.TRef sig ⟨S1600000x128, .f32⟩).toBuf v = v := rfl
theorem ofBuf_v8 (v : main_v8.ty.Contents (Elt Ideal)) :
    (StableHlo.TRef.of main_v8 : StableHlo.TRef sig ⟨S100000x128, .f32⟩).ofBuf v = v := rfl
theorem toBuf_v9 (v : (⟨S1600000x128, .f32⟩ : BufTy).Contents (Elt Ideal)) :
    (StableHlo.TRef.of main_v9 : StableHlo.TRef sig ⟨S1600000x128, .f32⟩).toBuf v = v := rfl

/-! ## Up to the first region -/

theorem W1_v1 (c : Dev nD) : W1 m ρ c (Proc.devRef .tc main_v1) = srcOf (m ((c : Thread nD τ).loc main_arg1)) := by
  show StableHlo.after hostOps0 (W0 m ρ c) (Proc.devRef .tc main_v1) = _
  after_results; rfl

theorem W1_v3 (c : Dev nD) : W1 m ρ c (Proc.devRef .tc main_v3) = dstOf (m ((c : Thread nD τ).loc main_arg1)) := by
  show StableHlo.after hostOps0 (W0 m ρ c) (Proc.devRef .tc main_v3) = _
  after_results; rfl

theorem W1_arg0 (c : Dev nD) : W1 m ρ c (Proc.devRef .tc main_arg0) = (m ((c : Thread nD τ).loc main_arg0)) :=
  (show W1 m ρ c (Proc.devRef .tc main_arg0) = W0 m ρ c (Proc.devRef .tc main_arg0) by unwritten).trans rfl

theorem W2_v1 (c : Dev nD) : W2 m ρ c (Proc.devRef .tc main_v1) = srcOf (m ((c : Thread nD τ).loc main_arg1)) :=
  (show W2 m ρ c (Proc.devRef .tc main_v1) = W1 m ρ c (Proc.devRef .tc main_v1) by unwritten).trans (W1_v1 m ρ c)

theorem W2_v3 (c : Dev nD) : W2 m ρ c (Proc.devRef .tc main_v3) = dstOf (m ((c : Thread nD τ).loc main_arg1)) :=
  (show W2 m ρ c (Proc.devRef .tc main_v3) = W1 m ρ c (Proc.devRef .tc main_v3) by unwritten).trans (W1_v3 m ρ c)

theorem W2_v4 (c : Dev nD) : (W2 m ρ c (Proc.devRef .tc main_v4) : FVec Ideal S1600000x128 .f32) = takeK (F := Ideal) (m ((c : Thread nD τ).loc main_arg0)) (srcOf (m ((c : Thread nD τ).loc main_arg1))) := by
  show StableHlo.after hostOps0_1 (W1 m ρ c) (Proc.devRef .tc main_v4) = _
  after_results_simp
  simp only [ofBuf_toBuf, toBuf_ofBuf, ofBuf_v1, ofBuf_arg0, toBuf_v4]
  rfl

theorem W3_v7 (c : Dev nD) : (W3 m ρ c (Proc.devRef .tc main_v7) : FVec Ideal S100000x128 .f32) = aggK (F := Ideal) (m ((c : Thread nD τ).loc main_arg0)) (m ((c : Thread nD τ).loc main_arg1)) := by
  have e3 := W2_v3 m ρ c
  have e4 := W2_v4 m ρ c
  show StableHlo.after hostOps0_2 (W2 m ρ c) (Proc.devRef .tc main_v7) = _
  generalize W2 m ρ c = W at e3 e4 ⊢
  after_results
  rw [e3, e4]; rfl

theorem W3_arg0 (c : Dev nD) : W3 m ρ c (Proc.devRef .tc main_arg0) = (m ((c : Thread nD τ).loc main_arg0)) :=
  (show W3 m ρ c (Proc.devRef .tc main_arg0) = W2 m ρ c (Proc.devRef .tc main_arg0) by unwritten).trans ((show W2 m ρ c (Proc.devRef .tc main_arg0) = W1 m ρ c (Proc.devRef .tc main_arg0) by unwritten).trans ((show W1 m ρ c (Proc.devRef .tc main_arg0) = W0 m ρ c (Proc.devRef .tc main_arg0) by unwritten).trans rfl))

theorem W3_arg3 (c : Dev nD) : W3 m ρ c (Proc.devRef .tc main_arg3) = (m ((c : Thread nD τ).loc main_arg3)) :=
  (show W3 m ρ c (Proc.devRef .tc main_arg3) = W2 m ρ c (Proc.devRef .tc main_arg3) by unwritten).trans ((show W2 m ρ c (Proc.devRef .tc main_arg3) = W1 m ρ c (Proc.devRef .tc main_arg3) by unwritten).trans ((show W1 m ρ c (Proc.devRef .tc main_arg3) = W0 m ρ c (Proc.devRef .tc main_arg3) by unwritten).trans rfl))

theorem W3_arg4 (c : Dev nD) : W3 m ρ c (Proc.devRef .tc main_arg4) = (m ((c : Thread nD τ).loc main_arg4)) :=
  (show W3 m ρ c (Proc.devRef .tc main_arg4) = W2 m ρ c (Proc.devRef .tc main_arg4) by unwritten).trans ((show W2 m ρ c (Proc.devRef .tc main_arg4) = W1 m ρ c (Proc.devRef .tc main_arg4) by unwritten).trans ((show W1 m ρ c (Proc.devRef .tc main_arg4) = W0 m ρ c (Proc.devRef .tc main_arg4) by unwritten).trans rfl))

theorem W3_arg5 (c : Dev nD) : W3 m ρ c (Proc.devRef .tc main_arg5) = (m ((c : Thread nD τ).loc main_arg5)) :=
  (show W3 m ρ c (Proc.devRef .tc main_arg5) = W2 m ρ c (Proc.devRef .tc main_arg5) by unwritten).trans ((show W2 m ρ c (Proc.devRef .tc main_arg5) = W1 m ρ c (Proc.devRef .tc main_arg5) by unwritten).trans ((show W1 m ρ c (Proc.devRef .tc main_arg5) = W0 m ρ c (Proc.devRef .tc main_arg5) by unwritten).trans rfl))

theorem W3_arg6 (c : Dev nD) : W3 m ρ c (Proc.devRef .tc main_arg6) = (m ((c : Thread nD τ).loc main_arg6)) :=
  (show W3 m ρ c (Proc.devRef .tc main_arg6) = W2 m ρ c (Proc.devRef .tc main_arg6) by unwritten).trans ((show W2 m ρ c (Proc.devRef .tc main_arg6) = W1 m ρ c (Proc.devRef .tc main_arg6) by unwritten).trans ((show W1 m ρ c (Proc.devRef .tc main_arg6) = W0 m ρ c (Proc.devRef .tc main_arg6) by unwritten).trans rfl))

/-! ## The first convolution -/

/-- The features after the first convolution. -/
def h1K (c : Dev nD) : FVec Ideal S100000x128 .f32 :=
  Cert.Spec.layerG (m ((c : Thread nD τ).loc main_arg0)) (aggK (F := Ideal) (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))

theorem W4_v8 (c : Dev nD) : (W4 m ρ c (Proc.devRef .tc main_v8) : FVec Ideal S100000x128 .f32) = h1K m c := by
  refine (W4_arr m ρ c 6).trans ((Layer0.final (V3 m ρ) c).trans ?_)
  show Cert.Spec.layerG (W3 m ρ c (Proc.devRef .tc main_arg0)) (W3 m ρ c (Proc.devRef .tc main_v7)) (W3 m ρ c (Proc.devRef .tc main_arg3))
    (W3 m ρ c (Proc.devRef .tc main_arg4)) (W3 m ρ c (Proc.devRef .tc main_arg5)) (W3 m ρ c (Proc.devRef .tc main_arg6)) = _
  rw [W3_arg0, W3_v7, W3_arg3, W3_arg4, W3_arg5, W3_arg6]; rfl

theorem W4_v1 (c : Dev nD) : W4 m ρ c (Proc.devRef .tc main_v1) = srcOf (m ((c : Thread nD τ).loc main_arg1)) :=
  (W4_of_ne m ρ c main_v1 (by decide)).trans ((show W3 m ρ c (Proc.devRef .tc main_v1) = W2 m ρ c (Proc.devRef .tc main_v1) by unwritten).trans (W2_v1 m ρ c))

theorem W4_v3 (c : Dev nD) : W4 m ρ c (Proc.devRef .tc main_v3) = dstOf (m ((c : Thread nD τ).loc main_arg1)) :=
  (W4_of_ne m ρ c main_v3 (by decide)).trans ((show W3 m ρ c (Proc.devRef .tc main_v3) = W2 m ρ c (Proc.devRef .tc main_v3) by unwritten).trans (W2_v3 m ρ c))

/-! ## Between the convolutions -/

theorem W5_v9 (c : Dev nD) : (W5 m ρ c (Proc.devRef .tc main_v9) : FVec Ideal S1600000x128 .f32) = takeK (F := Ideal) (h1K m c) (srcOf (m ((c : Thread nD τ).loc main_arg1))) := by
  have e1 := W4_v1 m ρ c
  have e8 := W4_v8 m ρ c
  show StableHlo.after hostOps1 (W4 m ρ c) (Proc.devRef .tc main_v9) = _
  generalize W4 m ρ c = W at e1 e8 ⊢
  after_results_simp
  simp only [ofBuf_toBuf, toBuf_ofBuf, ofBuf_v1, ofBuf_v8, toBuf_v9]
  rw [e1, e8]; rfl

theorem W5_v3 (c : Dev nD) : W5 m ρ c (Proc.devRef .tc main_v3) = dstOf (m ((c : Thread nD τ).loc main_arg1)) :=
  (show W5 m ρ c (Proc.devRef .tc main_v3) = W4 m ρ c (Proc.devRef .tc main_v3) by unwritten).trans (W4_v3 m ρ c)

theorem W6_v12 (c : Dev nD) : (W6 m ρ c (Proc.devRef .tc main_v12) : FVec Ideal S100000x128 .f32) = aggK (F := Ideal) (h1K m c) (m ((c : Thread nD τ).loc main_arg1)) := by
  have e3 := W5_v3 m ρ c
  have e9 := W5_v9 m ρ c
  show StableHlo.after hostOps1_1 (W5 m ρ c) (Proc.devRef .tc main_v12) = _
  generalize W5 m ρ c = W at e3 e9 ⊢
  after_results
  rw [e3, e9]; rfl

theorem W6_v8 (c : Dev nD) : (W6 m ρ c (Proc.devRef .tc main_v8) : FVec Ideal S100000x128 .f32) = h1K m c :=
  (show W6 m ρ c (Proc.devRef .tc main_v8) = W5 m ρ c (Proc.devRef .tc main_v8) by unwritten).trans ((show W5 m ρ c (Proc.devRef .tc main_v8) = W4 m ρ c (Proc.devRef .tc main_v8) by unwritten).trans (W4_v8 m ρ c))

theorem W6_arg7 (c : Dev nD) : W6 m ρ c (Proc.devRef .tc main_arg7) = (m ((c : Thread nD τ).loc main_arg7)) :=
  ((W7_arr m ρ c 2).trans (((dat1 (V6 m ρ) c).arrAt_in 2 rfl _).trans (A_eq1 (V6 m ρ) c 2))).symm.trans
    ((show W8 m ρ c (Proc.devRef .tc main_arg7) = W7 m ρ c (Proc.devRef .tc main_arg7) by unwritten).symm.trans ((W9_of_ne m ρ c main_arg7 (by decide)).symm.trans (W9_main_arg7 m ρ c)))

theorem W6_arg8 (c : Dev nD) : W6 m ρ c (Proc.devRef .tc main_arg8) = (m ((c : Thread nD τ).loc main_arg8)) :=
  ((W7_arr m ρ c 3).trans (((dat1 (V6 m ρ) c).arrAt_in 3 rfl _).trans (A_eq1 (V6 m ρ) c 3))).symm.trans
    ((show W8 m ρ c (Proc.devRef .tc main_arg8) = W7 m ρ c (Proc.devRef .tc main_arg8) by unwritten).symm.trans ((W9_of_ne m ρ c main_arg8 (by decide)).symm.trans (W9_main_arg8 m ρ c)))

theorem W6_arg9 (c : Dev nD) : W6 m ρ c (Proc.devRef .tc main_arg9) = (m ((c : Thread nD τ).loc main_arg9)) :=
  ((W7_arr m ρ c 4).trans (((dat1 (V6 m ρ) c).arrAt_in 4 rfl _).trans (A_eq1 (V6 m ρ) c 4))).symm.trans
    ((show W8 m ρ c (Proc.devRef .tc main_arg9) = W7 m ρ c (Proc.devRef .tc main_arg9) by unwritten).symm.trans ((W9_of_ne m ρ c main_arg9 (by decide)).symm.trans (W9_main_arg9 m ρ c)))

theorem W6_arg10 (c : Dev nD) : W6 m ρ c (Proc.devRef .tc main_arg10) = (m ((c : Thread nD τ).loc main_arg10)) :=
  ((W7_arr m ρ c 5).trans (((dat1 (V6 m ρ) c).arrAt_in 5 rfl _).trans (A_eq1 (V6 m ρ) c 5))).symm.trans
    ((show W8 m ρ c (Proc.devRef .tc main_arg10) = W7 m ρ c (Proc.devRef .tc main_arg10) by unwritten).symm.trans ((W9_of_ne m ρ c main_arg10 (by decide)).symm.trans (W9_main_arg10 m ρ c)))

/-! ## The second convolution -/

/-- The features after the second convolution. -/
def h2K (c : Dev nD) : FVec Ideal S100000x128 .f32 :=
  Cert.Spec.layerG (h1K m c) (aggK (F := Ideal) (h1K m c) (m ((c : Thread nD τ).loc main_arg1))) (m ((c : Thread nD τ).loc main_arg7)) (m ((c : Thread nD τ).loc main_arg8)) (m ((c : Thread nD τ).loc main_arg9)) (m ((c : Thread nD τ).loc main_arg10))

theorem W7_v13 (c : Dev nD) : (W7 m ρ c (Proc.devRef .tc main_v13) : FVec Ideal S100000x128 .f32) = h2K m c := by
  refine (W7_arr m ρ c 6).trans ((Layer1.final (V6 m ρ) c).trans ?_)
  show Cert.Spec.layerG (W6 m ρ c (Proc.devRef .tc main_v8)) (W6 m ρ c (Proc.devRef .tc main_v12)) (W6 m ρ c (Proc.devRef .tc main_arg7))
    (W6 m ρ c (Proc.devRef .tc main_arg8)) (W6 m ρ c (Proc.devRef .tc main_arg9)) (W6 m ρ c (Proc.devRef .tc main_arg10)) = _
  rw [W6_v8, W6_v12, W6_arg7, W6_arg8, W6_arg9, W6_arg10]; rfl

/-! ## Pooling and the read-out -/

theorem W7_arg2 (c : Dev nD) : W7 m ρ c (Proc.devRef .tc main_arg2) = (m ((c : Thread nD τ).loc main_arg2)) :=
  (show W8 m ρ c (Proc.devRef .tc main_arg2) = W7 m ρ c (Proc.devRef .tc main_arg2) by unwritten).symm.trans ((W9_of_ne m ρ c main_arg2 (by decide)).symm.trans (W9_main_arg2 m ρ c))

theorem W8_v16 (c : Dev nD) : (W8 m ρ c (Proc.devRef .tc main_v16) : FVec Ideal S1024x128 .f32) = poolK (F := Ideal) (h2K m c) (m ((c : Thread nD τ).loc main_arg2)) := by
  have e2 := W7_arg2 m ρ c
  have e13 := W7_v13 m ρ c
  show StableHlo.after hostOps2 (W7 m ρ c) (Proc.devRef .tc main_v16) = _
  generalize W7 m ρ c = W at e2 e13 ⊢
  after_results
  rw [e2, e13]; rfl

theorem W8_arg11 (c : Dev nD) : W8 m ρ c (Proc.devRef .tc main_arg11) = (m ((c : Thread nD τ).loc main_arg11)) :=
  ((W9_arr m ρ c 1).trans (((dat2 (V8 m ρ) c).arrAt_in 1 rfl _).trans (A_eq2 (V8 m ρ) c 1))).symm.trans (W9_main_arg11 m ρ c)

theorem W8_arg12 (c : Dev nD) : W8 m ρ c (Proc.devRef .tc main_arg12) = (m ((c : Thread nD τ).loc main_arg12)) :=
  ((W9_arr m ρ c 2).trans (((dat2 (V8 m ρ) c).arrAt_in 2 rfl _).trans (A_eq2 (V8 m ρ) c 2))).symm.trans (W9_main_arg12 m ρ c)

theorem W8_arg13 (c : Dev nD) : W8 m ρ c (Proc.devRef .tc main_arg13) = (m ((c : Thread nD τ).loc main_arg13)) :=
  ((W9_arr m ρ c 3).trans (((dat2 (V8 m ρ) c).arrAt_in 3 rfl _).trans (A_eq2 (V8 m ρ) c 3))).symm.trans (W9_main_arg13 m ρ c)

theorem W8_arg14 (c : Dev nD) : W8 m ρ c (Proc.devRef .tc main_arg14) = (m ((c : Thread nD τ).loc main_arg14)) :=
  ((W9_arr m ρ c 4).trans (((dat2 (V8 m ρ) c).arrAt_in 4 rfl _).trans (A_eq2 (V8 m ρ) c 4))).symm.trans (W9_main_arg14 m ρ c)

/-- The kernel program's result: the read-out of the pooled second-convolution features. -/
theorem W9_v17 (c : Dev nD) : (W9 m ρ c (Proc.devRef .tc main_v17) : FVec Ideal S1024x10 .f32)
    = Cert.Spec.clsG (poolK (F := Ideal) (h2K m c) (m ((c : Thread nD τ).loc main_arg2))) (m ((c : Thread nD τ).loc main_arg11)) (m ((c : Thread nD τ).loc main_arg12)) (m ((c : Thread nD τ).loc main_arg13)) (m ((c : Thread nD τ).loc main_arg14)) := by
  refine (W9_arr m ρ c 5).trans ((Cls.final (V8 m ρ) c).trans ?_)
  show Cert.Spec.clsG (W8 m ρ c (Proc.devRef .tc main_v16)) (W8 m ρ c (Proc.devRef .tc main_arg11)) (W8 m ρ c (Proc.devRef .tc main_arg12))
    (W8 m ρ c (Proc.devRef .tc main_arg13)) (W8 m ρ c (Proc.devRef .tc main_arg14)) = _
  rw [W8_v16, W8_arg11, W8_arg12, W8_arg13, W8_arg14]

end Cert.KernelIdeal.KChain

end
-- ==== Proof.RefChain.lean ====
/-
  The reference's result, cut into the four stages of the network: the sum of in-neighbours' features
  (`agg`: a gather of rows at the edges' sources scattered-and-added at their targets), a GIN convolution's perceptron
  (`layer`), the pooling of node rows by graph (`pool`) and the read-out (`cls`); `res_eq` says the run's term is
  their composition, the first convolution's output feeding the second.
-/
import proofs.«417192_j53944789238579_1_alg».proof.Proof.RefRun

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Row `i` of the result sums the rows `h[src]` over the edges whose target is `i` (`e` holds sources, then targets). -/
def agg (h : FVec F S100000x128 .f32) (e : IVec S2x1600000 32) : FVec F S100000x128 .f32 :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 100000#32))) (shapeCast _ (extractStridedSlice S1x1600000 ![0, 0] e slices_S2x1600000_S1x1600000_0_0) shapeCasts_S1x1600000_S1600000))))

/-- `max(max((h + agg)·wa + ba, 0)·wb + bb, 0)` on all rows. -/
def layer (h agg : FVec F S100000x128 .f32) (wa : FVec F S128x128 .f32) (ba : FVec F S128 .f32) (wb : FVec F S128x128 .f32) (bb : FVec F S128 .f32) :
    FVec F S100000x128 .f32 :=
  maximumf (addf (Host.dotGeneral dot_S100000x128_S128x128_S100000x128_1_0_0_1_n_n none (maximumf (addf (Host.dotGeneral dot_S100000x128_S128x128_S100000x128_1_0_0_1_n_n none (addf h agg) wa) (broadcastInDim S100000x128 ![0, 1] bcast_S1x128_S100000x128_0_1 (broadcastInDim S1x128 ![1] bcast_S128_S1x128_1 ba))) (broadcastInDim S100000x128 ![] bcast_S_S100000x128 (constant S_ .f32 0x00000000#32))) wb) (broadcastInDim S100000x128 ![0, 1] bcast_S1x128_S100000x128_0_1 (broadcastInDim S1x128 ![1] bcast_S128_S1x128_1 bb))) (broadcastInDim S100000x128 ![] bcast_S_S100000x128 (constant S_ .f32 0x00000000#32))

/-- Row `g` of the result sums the rows of `h` whose graph number is `g`. -/
def pool (h : FVec F S100000x128 .f32) (batch : IVec S100000 32) : FVec F S1024x128 .f32 :=
  Host.scatterAdd scatter_S1024x128_S100000x1_S100000x128_1_0_0_1 (broadcastInDim S1024x128 ![] bcast_S_S1024x128 (constant S_ .f32 0x00000000#32)) (broadcastInDim S100000x1 ![0] bcast_S100000_S100000x1_0 batch) h

/-- The read-out: `logsoftmax(max(g·wl1 + bl1, 0)·wl2 + bl2)`, the log-softmax in its shifted form. -/
def cls (g : FVec F S1024x128 .f32) (wl1 : FVec F S128x128 .f32) (bl1 : FVec F S128 .f32) (wl2 : FVec F S128x10 .f32) (bl2 : FVec F S10 .f32) :
    FVec F S1024x10 .f32 :=
  subf (subf (addf (Host.dotGeneral dot_S1024x128_S128x10_S1024x10_1_0_0_1_n_n none (maximumf (addf (Host.dotGeneral dot_S1024x128_S128x128_S1024x128_1_0_0_1_n_n none g wl1) (broadcastInDim S1024x128 ![0, 1] bcast_S1x128_S1024x128_0_1 (broadcastInDim S1x128 ![1] bcast_S128_S1x128_1 bl1))) (broadcastInDim S1024x128 ![] bcast_S_S1024x128 (constant S_ .f32 0x00000000#32))) wl2) (broadcastInDim S1024x10 ![0, 1] bcast_S1x10_S1024x10_0_1 (broadcastInDim S1x10 ![1] bcast_S10_S1x10_1 bl2))) (broadcastInDim S1024x10 ![0, 1] bcast_S1024x1_S1024x10_0_1 (broadcastInDim S1024x1 ![0] bcast_S1024_S1024x1_0 (maximumf (broadcastInDim S1024 ![] bcast_S_S1024 (constant S_ .f32 0xFF800000#32)) (Host.reduce FloatOps.maximumf (addf (Host.dotGeneral dot_S1024x128_S128x10_S1024x10_1_0_0_1_n_n none (maximumf (addf (Host.dotGeneral dot_S1024x128_S128x128_S1024x128_1_0_0_1_n_n none g wl1) (broadcastInDim S1024x128 ![0, 1] bcast_S1x128_S1024x128_0_1 (broadcastInDim S1x128 ![1] bcast_S128_S1x128_1 bl1))) (broadcastInDim S1024x128 ![] bcast_S_S1024x128 (constant S_ .f32 0x00000000#32))) wl2) (broadcastInDim S1024x10 ![0, 1] bcast_S1x10_S1024x10_0_1 (broadcastInDim S1x10 ![1] bcast_S10_S1x10_1 bl2))) (constant S_ .f32 0xFF800000#32) reducesTo_S1024x10_S1024_d1 h_S_))))) (broadcastInDim S1024x10 ![0, 1] bcast_S1024x1_S1024x10_0_1 (Host.log (broadcastInDim S1024x1 ![0] bcast_S1024_S1024x1_0 (Host.reduceAdd (Host.exp (subf (addf (Host.dotGeneral dot_S1024x128_S128x10_S1024x10_1_0_0_1_n_n none (maximumf (addf (Host.dotGeneral dot_S1024x128_S128x128_S1024x128_1_0_0_1_n_n none g wl1) (broadcastInDim S1024x128 ![0, 1] bcast_S1x128_S1024x128_0_1 (broadcastInDim S1x128 ![1] bcast_S128_S1x128_1 bl1))) (broadcastInDim S1024x128 ![] bcast_S_S1024x128 (constant S_ .f32 0x00000000#32))) wl2) (broadcastInDim S1024x10 ![0, 1] bcast_S1x10_S1024x10_0_1 (broadcastInDim S1x10 ![1] bcast_S10_S1x10_1 bl2))) (broadcastInDim S1024x10 ![0, 1] bcast_S1024x1_S1024x10_0_1 (broadcastInDim S1024x1 ![0] bcast_S1024_S1024x1_0 (maximumf (broadcastInDim S1024 ![] bcast_S_S1024 (constant S_ .f32 0xFF800000#32)) (Host.reduce FloatOps.maximumf (addf (Host.dotGeneral dot_S1024x128_S128x10_S1024x10_1_0_0_1_n_n none (maximumf (addf (Host.dotGeneral dot_S1024x128_S128x128_S1024x128_1_0_0_1_n_n none g wl1) (broadcastInDim S1024x128 ![0, 1] bcast_S1x128_S1024x128_0_1 (broadcastInDim S1x128 ![1] bcast_S128_S1x128_1 bl1))) (broadcastInDim S1024x128 ![] bcast_S_S1024x128 (constant S_ .f32 0x00000000#32))) wl2) (broadcastInDim S1024x10 ![0, 1] bcast_S1x10_S1024x10_0_1 (broadcastInDim S1x10 ![1] bcast_S10_S1x10_1 bl2))) (constant S_ .f32 0xFF800000#32) reducesTo_S1024x10_S1024_d1 h_S_)))))) (constant S_ .f32 0x00000000#32) reducesTo_S1024x10_S1024_d1 h_S_))))

/-- The features after the first convolution. -/
def h1 (m : (ℓ : Loc nD τ sig) → Buf (Elt F) ℓ) (c : Dev nD) : FVec F S100000x128 .f32 :=
  layer (m ((c.tc : Thread nD τ).loc main_arg0)) (agg (m ((c.tc : Thread nD τ).loc main_arg0)) (m ((c.tc : Thread nD τ).loc main_arg1)))
    (m ((c.tc : Thread nD τ).loc main_arg3)) (m ((c.tc : Thread nD τ).loc main_arg4)) (m ((c.tc : Thread nD τ).loc main_arg5)) (m ((c.tc : Thread nD τ).loc main_arg6))

/-- The features after the second convolution. -/
def h2 (m : (ℓ : Loc nD τ sig) → Buf (Elt F) ℓ) (c : Dev nD) : FVec F S100000x128 .f32 :=
  layer (h1 m c) (agg (h1 m c) (m ((c.tc : Thread nD τ).loc main_arg1)))
    (m ((c.tc : Thread nD τ).loc main_arg7)) (m ((c.tc : Thread nD τ).loc main_arg8)) (m ((c.tc : Thread nD τ).loc main_arg9)) (m ((c.tc : Thread nD τ).loc main_arg10))

set_option maxRecDepth 131072 in
/-- The run's result is the read-out of the pooled second-convolution features. -/
theorem res_eq (m : (ℓ : Loc nD τ sig) → Buf (Elt F) ℓ) (c : Dev nD) :
    Cert.ReferenceIdeal.ValueP.res_main_v58 m c
      = cls (pool (h2 m c) (m ((c.tc : Thread nD τ).loc main_arg2)))
          (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v58 cls pool h2 h1 layer agg
  rfl

end Cert.ReferenceIdeal.Chain

end
-- ==== Proof.RefLayer.lean ====
/-
  The reference's two dense stages, read entry by entry.

  A matrix product at `(p, q)` is the sum over the contracted axis of the operands' products; a bias vector spread over
  the rows reads its entry at the column; the maximum with a splat of the zero word is the positive part. Composed, a
  convolution's stage at `(p, q)` is two affine maps of row `p` of `h + agg`, each followed by the positive part. The
  read-out adds the log-softmax: the row's maximum is a fold of `max` from the minus-infinity word (taking the maximum
  with that word once more changes nothing), the row's sum of exponentials starts from zero, and both are spread back
  over the ten columns, so entry `(p, q)` is `(z q - M) - log Σ exp(z t - M)` for row `p` of the logits.
-/
import proofs.«417192_j53944789238579_1_alg».proof.Proof.RefChain
import proofs.«417192_j53944789238579_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Data.Finset.Fold

noncomputable section

namespace Cert.ReferenceIdeal.RefLayer

open Cert.ReferenceIdeal Cert.ReferenceIdeal.Gen Idealize.ShloMosaic Idealize.ShloMosaic.TcCoe Idealize.SL.Sem Idealize.ShloMosaic.ValueIdx

/-! ## Reading the layout operations at an index -/

/-- A scalar word spread over any shape reads that word everywhere. -/
theorem splat_apply {T : Shape} (hT : S_.BroadcastsInDim T ![]) (w : BitVec 32) (i : T.Idx) :
    broadcastInDim T ![] hT (constant (F := Ideal) S_ .f32 w) i = Ideal.ofBits .f32 w :=
  broadcastInDim_apply _ hT _ i (fun a => a.elim0) (fun a => a.elim0)

/-- A bias vector spread over the rows reads its entry at the column. -/
theorem biasNodes_apply (b : FVec Ideal S128 .f32) (p : Fin 100000) (q : Fin 128) :
    broadcastInDim S100000x128 ![0, 1] bcast_S1x128_S100000x128_0_1 (broadcastInDim S1x128 ![1] bcast_S128_S1x128_1 b) (ix2 p q) = b (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b _ (ix1 q) (fun a => match a with
    | ⟨0, _⟩ => by show q.val = if (128 : Nat) = 1 then 0 else q.val; rw [if_neg (by decide)])

/-- A bias vector spread over the rows reads its entry at the column. -/
theorem biasGraphs_apply (b : FVec Ideal S128 .f32) (p : Fin 1024) (q : Fin 128) :
    broadcastInDim S1024x128 ![0, 1] bcast_S1x128_S1024x128_0_1 (broadcastInDim S1x128 ![1] bcast_S128_S1x128_1 b) (ix2 p q) = b (ix1 q) := by
  refine (broadcastInDim_apply _ bcast_S1x128_S1024x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b _ (ix1 q) (fun a => match a with
    | ⟨0, _⟩ => by show q.val = if (128 : Nat) = 1 then 0 else q.val; rw [if_neg (by decide)])

/-- A bias vector spread over the rows reads its entry at the column. -/
theorem biasClasses_apply (b : FVec Ideal S10 .f32) (p : Fin 1024) (q : Fin 10) :
    broadcastInDim S1024x10 ![0, 1] bcast_S1x10_S1024x10_0_1 (broadcastInDim S1x10 ![1] bcast_S10_S1x10_1 b) (ix2 p q) = b (ix1 q) := by
  refine (broadcastInDim_apply _ bcast_S1x10_S1024x10_0_1 _ (ix2 p q) (ix2 (0 : Fin 1) q) (fun a => match a with
    | ⟨0, _⟩ => by show 0 = if (1 : Nat) = 1 then 0 else p.val; rw [if_pos rfl]
    | ⟨1, _⟩ => by show q.val = if (10 : Nat) = 1 then 0 else q.val; rw [if_neg (by decide)])).trans ?_
  exact broadcastInDim_apply _ bcast_S10_S1x10_1 b _ (ix1 q) (fun a => match a with
    | ⟨0, _⟩ => by show q.val = if (10 : Nat) = 1 then 0 else q.val; rw [if_neg (by decide)])

/-- A vector stood up as a one-column array reads its entry at the row. -/
theorem column_apply (v : FVec Ideal S1024 .f32) (p : Fin 1024) :
    broadcastInDim S1024x1 ![0] bcast_S1024_S1024x1_0 v (ix2 p (0 : Fin 1)) = v (ix1 p) :=
  broadcastInDim_apply _ bcast_S1024_S1024x1_0 v _ (ix1 p) (fun a => match a with
    | ⟨0, _⟩ => by show p.val = if (1024 : Nat) = 1 then 0 else p.val; rw [if_neg (by decide)])

/-- A one-column array spread over the ten columns reads its entry at the row. -/
theorem spread_apply (c : FVec Ideal S1024x1 .f32) (p : Fin 1024) (q : Fin 10) :
    broadcastInDim S1024x10 ![0, 1] bcast_S1024x1_S1024x10_0_1 c (ix2 p q) = c (ix2 p (0 : Fin 1)) :=
  broadcastInDim_apply _ bcast_S1024x1_S1024x10_0_1 c _ (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- The exponential acts entry by entry. -/
theorem exp_apply {s : Shape} (x : FVec Ideal s .f32) (i : s.Idx) : Host.exp x i = Ideal.exp (x i) := rfl
/-- The logarithm acts entry by entry. -/
theorem log_apply {s : Shape} (x : FVec Ideal s .f32) (i : s.Idx) : Host.log x i = Ideal.log (x i) := rfl

/-! ## The three matrix products at an entry -/

/-! ### Node features times a 128 × 128 weight -/

/-- The left operand's row is the output's row. -/
theorem nodesDot_lhs_row (i : S100000x128.Idx) (c : dot_S100000x128_S128x128_S100000x128_1_0_0_1_n_n.contr.Idx) :
    (dot_S100000x128_S128x128_S100000x128_1_0_0_1_n_n.lhsIdx i c 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The left operand's column is the summation index. -/
theorem nodesDot_lhs_col (i : S100000x128.Idx) (c : dot_S100000x128_S128x128_S100000x128_1_0_0_1_n_n.contr.Idx) :
    (dot_S100000x128_S128x128_S100000x128_1_0_0_1_n_n.lhsIdx i c 1).val = (c ⟨0, by decide⟩).val :=
  dot_S100000x128_S128x128_S100000x128_1_0_0_1_n_n.lhsIdx_val_of_single rfl i c
/-- The right operand's row is the summation index. -/
theorem nodesDot_rhs_row (i : S100000x128.Idx) (c : dot_S100000x128_S128x128_S100000x128_1_0_0_1_n_n.contr.Idx) :
    (dot_S100000x128_S128x128_S100000x128_1_0_0_1_n_n.rhsIdx i c 0).val = (c ⟨0, by decide⟩).val :=
  dot_S100000x128_S128x128_S100000x128_1_0_0_1_n_n.rhsIdx_val_of_single rfl i c
/-- The right operand's column is the output's column. -/
theorem nodesDot_rhs_col (i : S100000x128.Idx) (c : dot_S100000x128_S128x128_S100000x128_1_0_0_1_n_n.contr.Idx) :
    (dot_S100000x128_S128x128_S100000x128_1_0_0_1_n_n.rhsIdx i c 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
/-- Entry `(p, q)` of the product is `∑ k, x (p, k) * w (k, q)`. -/
theorem nodesDot_apply (x : FVec Ideal S100000x128 .f32) (w : FVec Ideal S128x128 .f32) (p : Fin 100000) (q : Fin 128) :
    Host.dotGeneral dot_S100000x128_S128x128_S100000x128_1_0_0_1_n_n none x w (ix2 p q) = ∑ k : Fin 128, x (ix2 p k) * w (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact nodesDot_lhs_row _ _
    | ⟨1, _⟩ => exact (nodesDot_lhs_col _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (nodesDot_rhs_row _ _).trans hk
    | ⟨1, _⟩ => exact nodesDot_rhs_col _ _)
  rw [el, er]

/-! ### Pooled features times a 128 × 128 weight -/

/-- The left operand's row is the output's row. -/
theorem graphsDot_lhs_row (i : S1024x128.Idx) (c : dot_S1024x128_S128x128_S1024x128_1_0_0_1_n_n.contr.Idx) :
    (dot_S1024x128_S128x128_S1024x128_1_0_0_1_n_n.lhsIdx i c 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column is the summation index. -/
theorem graphsDot_lhs_col (i : S1024x128.Idx) (c : dot_S1024x128_S128x128_S1024x128_1_0_0_1_n_n.contr.Idx) :
    (dot_S1024x128_S128x128_S1024x128_1_0_0_1_n_n.lhsIdx i c 1).val = (c ⟨0, by decide⟩).val :=
  dot_S1024x128_S128x128_S1024x128_1_0_0_1_n_n.lhsIdx_val_of_single rfl i c
/-- The right operand's row is the summation index. -/
theorem graphsDot_rhs_row (i : S1024x128.Idx) (c : dot_S1024x128_S128x128_S1024x128_1_0_0_1_n_n.contr.Idx) :
    (dot_S1024x128_S128x128_S1024x128_1_0_0_1_n_n.rhsIdx i c 0).val = (c ⟨0, by decide⟩).val :=
  dot_S1024x128_S128x128_S1024x128_1_0_0_1_n_n.rhsIdx_val_of_single rfl i c
/-- The right operand's column is the output's column. -/
theorem graphsDot_rhs_col (i : S1024x128.Idx) (c : dot_S1024x128_S128x128_S1024x128_1_0_0_1_n_n.contr.Idx) :
    (dot_S1024x128_S128x128_S1024x128_1_0_0_1_n_n.rhsIdx i c 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl
/-- Entry `(p, q)` of the product is `∑ k, x (p, k) * w (k, q)`. -/
theorem graphsDot_apply (x : FVec Ideal S1024x128 .f32) (w : FVec Ideal S128x128 .f32) (p : Fin 1024) (q : Fin 128) :
    Host.dotGeneral dot_S1024x128_S128x128_S1024x128_1_0_0_1_n_n none x w (ix2 p q) = ∑ k : Fin 128, x (ix2 p k) * w (ix2 k q) := by
  simp only [Host.dotGeneral]
  rw [Ideal.dotGeneral_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact graphsDot_lhs_row _ _
    | ⟨1, _⟩ => exact (graphsDot_lhs_col _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (graphsDot_rhs_row _ _).trans hk
    | ⟨1, _⟩ => exact graphsDot_rhs_col _ _)
  rw [el, er]

/-! ### Hidden features times the 128 × 10 weight -/

/-- The left operand's row is the output's row. -/
theorem classesDot_lhs_row (i : S1024x10.Idx) (c : dot_S1024x128_S128x10_S1024x10_1_0_0_1_n_n.contr.Idx) :
    (dot_S1024x128_S128x10_S1024x10_1_0_0_1_n_n.lhsIdx i c 0).val = (i 0).val := by
  unfold DotDims.lhsIdx
  rw [dif_neg (show ¬(0 : Fin S1024x128.rank) ∈ dot_S1024x128_S128x10_S1024x10_1_0_0_1_n_n.lhsBatch by decide), dif_pos (show (0 : Fin S1024x128.rank) ∈ dot_S1024x128_S128x10_S1024x10_1_0_0_1_n_n.lhsNonContracting by decide)]
  rfl
/-- The left operand's column is the summation index. -/
theorem classesDot_lhs_col (i : S1024x10.Idx) (c : dot_S1024x128_S128x10_S1024x10_1_0_0_1_n_n.contr.Idx) :
    (dot_S1024x128_S128x10_S1024x10_1_0_0_1_n_n.lhsIdx i c 1).val = (c ⟨0, by decide⟩).val :=
  dot_S1024x128_S128x10_S1024x10_1_0_0_1_n_n.lhsIdx_val_of_single rfl i c
/-- The right operand's row is the summation index. -/
theorem classesDot_rhs_row (i : S1024x10.Idx) (c : dot_S1024x128_S128x10_S1024x10_1_0_0_1_n_n.contr.Idx) :
    (dot_S1024x128_S128x10_S1024x10_1_0_0_1_n_n.rhsIdx i c 0).val = (c ⟨0, by decide⟩).val :=
  dot_S1024x128_S128x10_S1024x10_1_0_0_1_n_n.rhsIdx_val_of_single rfl i c
/-- The right operand's column is the output's column. -/
theorem classesDot_rhs_col (i : S1024x10.Idx) (c : dot_S1024x128_S128x10_S1024x10_1_0_0_1_n_n.contr.Idx) :
    (dot_S1024x128_S128x10_S1024x10_1_0_0_1_n_n.rhsIdx i c 1).val = (i 1).val := by
  unfold DotDims.rhsIdx
  rw [dif_neg (show ¬(1 : Fin S128x10.rank) ∈ dot_S1024x128_S128x10_S1024x10_1_0_0_1_n_n.rhsBatch by decide), dif_pos (show (1 : Fin S128x10.rank) ∈ dot_S1024x128_S128x10_S1024x10_1_0_0_1_n_n.rhsNonContracting by decide)]
  rfl
/-- Entry `(p, q)` of the product is `∑ k, x (p, k) * w (k, q)`. -/
theorem classesDot_apply (x : FVec Ideal S1024x128 .f32) (w : FVec Ideal S128x10 .f32) (p : Fin 1024) (q : Fin 10) :
    Host.dotGeneral dot_S1024x128_S128x10_S1024x10_1_0_0_1_n_n none x w (ix2 p q) = ∑ k : Fin 128, x (ix2 p k) * w (ix2 k q) := by
  simp only [Host.dotGeneral]
  rw [Ideal.dotGeneral_apply, ← Equiv.sum_comp (contrEquiv1 dot_S1024x128_S128x10_S1024x10_1_0_0_1_n_n 128 rfl rfl).symm]
  refine Finset.sum_congr rfl fun k _ => ?_
  have hk := contrEquiv1_symm_val dot_S1024x128_S128x10_S1024x10_1_0_0_1_n_n 128 rfl rfl k
  have el : dot_S1024x128_S128x10_S1024x10_1_0_0_1_n_n.lhsIdx (ix2 p q) ((contrEquiv1 dot_S1024x128_S128x10_S1024x10_1_0_0_1_n_n 128 rfl rfl).symm k) = ix2 p k := funext fun a => Fin.ext (by
    match a with
    | ⟨0, _⟩ => exact classesDot_lhs_row _ _
    | ⟨1, _⟩ => exact (classesDot_lhs_col _ _).trans hk)
  have er : dot_S1024x128_S128x10_S1024x10_1_0_0_1_n_n.rhsIdx (ix2 p q) ((contrEquiv1 dot_S1024x128_S128x10_S1024x10_1_0_0_1_n_n 128 rfl rfl).symm k) = ix2 k q := funext fun a => Fin.ext (by
    match a with
    | ⟨0, _⟩ => exact (classesDot_rhs_row _ _).trans hk
    | ⟨1, _⟩ => exact classesDot_rhs_col _ _)
  rw [el, er]

/-! ## The two row reductions of the log-softmax -/

/-- Dropping the class axis of a [1024, 10] array leaves its rows. -/
theorem rows_reduce : S1024x10.Reduces [1] S1024 := by decide

/-- The index `(p, t)` is row `p` with `t` put back on the dropped axis. -/
theorem rows_lift (p : Fin 1024) (t : Fin 10) : rows_reduce.lift (ix1 p) t = ix2 p t :=
  funext fun a => Fin.ext (by match a with | ⟨0, _⟩ => rfl | ⟨1, _⟩ => rfl)

/-- A row's maximum, started from the minus-infinity word, is the fold of `max` over the row's ten entries. -/
theorem rowMax_apply (z : FVec Ideal S1024x10 .f32) (p : Fin 1024) :
    Host.reduce (FloatOps.maximumf (F := Ideal) (φ := .f32)) z (constant (F := Ideal) S_ .f32 0xFF800000#32) reducesTo_S1024x10_S1024_d1 h_S_ (ix1 p)
      = (Finset.univ : Finset (Fin 10)).fold max Cert.Spec.negInfW (fun t => z (ix2 p t)) := by
  rw [Host.reduce_eq_fold_single _ z _ reducesTo_S1024x10_S1024_d1 rows_reduce h_S_ (ix1 p)]
  have hf : (z ∘ rows_reduce.lift (ix1 p)) = fun t : Fin 10 => z (ix2 p t) := funext fun t => congrArg z (rows_lift p t)
  rw [hf]
  rfl

/-- A row's sum, started from the zero word, is the sum of the row's ten entries. -/
theorem rowSum_apply (z : FVec Ideal S1024x10 .f32) (p : Fin 1024) :
    Host.reduceAdd z (constant (F := Ideal) S_ .f32 0x00000000#32) reducesTo_S1024x10_S1024_d1 h_S_ (ix1 p) = ∑ t : Fin 10, z (ix2 p t) := by
  simp only [Host.reduceAdd, Ideal.hostReduceAdd_def]
  rw [Ideal.hostReduceAdd_single reducesTo_S1024x10_S1024_d1 rows_reduce, constant_apply, Ideal.ofBits_zero_f32, zero_add]
  exact Finset.sum_congr rfl fun t _ => congrArg z (rows_lift p t)

/-- Taking the maximum of a fold's starting value with the fold changes nothing. -/
theorem max_start_fold {n : Nat} (b : EReal) (f : Fin n → EReal) :
    max b ((Finset.univ : Finset (Fin n)).fold max b f) = (Finset.univ : Finset (Fin n)).fold max b f :=
  max_eq_right ((Finset.le_fold_max b).mpr (Or.inl le_rfl))

/-! ## The stages at an entry -/

/-- A matrix product plus a bias, at an entry, is the affine map of the operand's row. -/
theorem nodes_affine (x : FVec Ideal S100000x128 .f32) (w : FVec Ideal S128x128 .f32) (b : FVec Ideal S128 .f32) (p : Fin 100000) (q : Fin 128) :
    addf (Host.dotGeneral dot_S100000x128_S128x128_S100000x128_1_0_0_1_n_n none x w) (broadcastInDim S100000x128 ![0, 1] bcast_S1x128_S100000x128_0_1 (broadcastInDim S1x128 ![1] bcast_S128_S1x128_1 b)) (ix2 p q)
      = Cert.Spec.lin (fun t => x (ix2 p t)) (fun a c => w (ix2 a c)) (fun k => b (ix1 k)) q := by
  rw [addf_apply, nodesDot_apply, biasNodes_apply]
  rfl

/-- The maximum with the zero splat, at an entry, is the positive part of the entry. -/
theorem nodes_positive (y : FVec Ideal S100000x128 .f32) (p : Fin 100000) (q : Fin 128) :
    maximumf y (broadcastInDim S100000x128 ![] bcast_S_S100000x128 (constant S_ .f32 0x00000000#32)) (ix2 p q) = max (y (ix2 p q)) Cert.Spec.zeroW := by
  rw [maximumf_apply, splat_apply]

/-- A matrix product plus a bias, at an entry, is the affine map of the operand's row. -/
theorem graphs_affine (x : FVec Ideal S1024x128 .f32) (w : FVec Ideal S128x128 .f32) (b : FVec Ideal S128 .f32) (p : Fin 1024) (q : Fin 128) :
    addf (Host.dotGeneral dot_S1024x128_S128x128_S1024x128_1_0_0_1_n_n none x w) (broadcastInDim S1024x128 ![0, 1] bcast_S1x128_S1024x128_0_1 (broadcastInDim S1x128 ![1] bcast_S128_S1x128_1 b)) (ix2 p q)
      = Cert.Spec.lin (fun t => x (ix2 p t)) (fun a c => w (ix2 a c)) (fun k => b (ix1 k)) q := by
  rw [addf_apply, graphsDot_apply, biasGraphs_apply]
  rfl

/-- The maximum with the zero splat, at an entry, is the positive part of the entry. -/
theorem graphs_positive (y : FVec Ideal S1024x128 .f32) (p : Fin 1024) (q : Fin 128) :
    maximumf y (broadcastInDim S1024x128 ![] bcast_S_S1024x128 (constant S_ .f32 0x00000000#32)) (ix2 p q) = max (y (ix2 p q)) Cert.Spec.zeroW := by
  rw [maximumf_apply, splat_apply]

/-- A matrix product plus a bias, at an entry, is the affine map of the operand's row. -/
theorem classes_affine (x : FVec Ideal S1024x128 .f32) (w : FVec Ideal S128x10 .f32) (b : FVec Ideal S10 .f32) (p : Fin 1024) (q : Fin 10) :
    addf (Host.dotGeneral dot_S1024x128_S128x10_S1024x10_1_0_0_1_n_n none x w) (broadcastInDim S1024x10 ![0, 1] bcast_S1x10_S1024x10_0_1 (broadcastInDim S1x10 ![1] bcast_S10_S1x10_1 b)) (ix2 p q)
      = Cert.Spec.lin (fun t => x (ix2 p t)) (fun a c => w (ix2 a c)) (fun k => b (ix1 k)) q := by
  rw [addf_apply, classesDot_apply, biasClasses_apply]
  rfl

/-- The row maximum the reference subtracts, spread back over the ten columns, is the fold of `max` over the row. -/
theorem shift_apply (z : FVec Ideal S1024x10 .f32) (p : Fin 1024) (q : Fin 10) :
    broadcastInDim S1024x10 ![0, 1] bcast_S1024x1_S1024x10_0_1 (broadcastInDim S1024x1 ![0] bcast_S1024_S1024x1_0
        (maximumf (broadcastInDim S1024 ![] bcast_S_S1024 (constant S_ .f32 0xFF800000#32))
          (Host.reduce FloatOps.maximumf z (constant S_ .f32 0xFF800000#32) reducesTo_S1024x10_S1024_d1 h_S_))) (ix2 p q)
      = (Finset.univ : Finset (Fin 10)).fold max Cert.Spec.negInfW (fun t => z (ix2 p t)) := by
  rw [spread_apply, column_apply, maximumf_apply, splat_apply, rowMax_apply, max_start_fold]

/-- The reference's log-softmax of an array, at an entry, is the shifted log-softmax of the entry's row. -/
theorem logSoftmax_apply (z : FVec Ideal S1024x10 .f32) (p : Fin 1024) (q : Fin 10) :
    subf (subf z (broadcastInDim S1024x10 ![0, 1] bcast_S1024x1_S1024x10_0_1 (broadcastInDim S1024x1 ![0] bcast_S1024_S1024x1_0
        (maximumf (broadcastInDim S1024 ![] bcast_S_S1024 (constant S_ .f32 0xFF800000#32))
          (Host.reduce FloatOps.maximumf z (constant S_ .f32 0xFF800000#32) reducesTo_S1024x10_S1024_d1 h_S_)))))
      (broadcastInDim S1024x10 ![0, 1] bcast_S1024x1_S1024x10_0_1 (Host.log (broadcastInDim S1024x1 ![0] bcast_S1024_S1024x1_0
        (Host.reduceAdd (Host.exp (subf z (broadcastInDim S1024x10 ![0, 1] bcast_S1024x1_S1024x10_0_1 (broadcastInDim S1024x1 ![0] bcast_S1024_S1024x1_0
          (maximumf (broadcastInDim S1024 ![] bcast_S_S1024 (constant S_ .f32 0xFF800000#32))
            (Host.reduce FloatOps.maximumf z (constant S_ .f32 0xFF800000#32) reducesTo_S1024x10_S1024_d1 h_S_))))))
          (constant S_ .f32 0x00000000#32) reducesTo_S1024x10_S1024_d1 h_S_)))) (ix2 p q)
      = Cert.Spec.lsmRow (fun t => z (ix2 p t)) q := by
  rw [subf_apply, subf_apply, shift_apply, spread_apply, log_apply, column_apply, rowSum_apply]
  unfold Cert.Spec.lsmRow
  refine congrArg (fun s => (z (ix2 p q) - (Finset.univ : Finset (Fin 10)).fold max Cert.Spec.negInfW (fun t => z (ix2 p t))) - Ideal.log s)
    (Finset.sum_congr rfl fun t _ => ?_)
  rw [exp_apply, subf_apply, shift_apply]

/-- The reference's convolution stage is the perceptron of `h + agg`, row by row. -/
theorem layer_eq (h agg : FVec Ideal S100000x128 .f32) (wa : FVec Ideal S128x128 .f32) (ba : FVec Ideal S128 .f32)
    (wb : FVec Ideal S128x128 .f32) (bb : FVec Ideal S128 .f32) :
    Chain.layer (F := Ideal) h agg wa ba wb bb = Cert.Spec.layerG h agg wa ba wb bb := by
  funext i
  obtain ⟨p, q, rfl⟩ : ∃ (p : Fin 100000) (q : Fin 128), i = ix2 p q := ⟨i 0, i 1, eq_ix2 i⟩
  show Chain.layer (F := Ideal) h agg wa ba wb bb (ix2 p q)
    = Cert.Spec.mlpRow (fun t => h (ix2 p t) + agg (ix2 p t)) (fun a b => wa (ix2 a b)) (fun k => ba (ix1 k))
        (fun a b => wb (ix2 a b)) (fun k => bb (ix1 k)) q
  unfold Chain.layer Cert.Spec.mlpRow
  rw [nodes_positive, nodes_affine]
  refine congrArg (fun v : Fin 128 → EReal => max (Cert.Spec.lin v (fun a b => wb (ix2 a b)) (fun k => bb (ix1 k)) q) Cert.Spec.zeroW)
    (funext fun k => ?_)
  rw [nodes_positive, nodes_affine]
  rfl

/-- The reference's read-out stage is the specification's, row by row. -/
theorem cls_eq (g : FVec Ideal S1024x128 .f32) (wl1 : FVec Ideal S128x128 .f32) (bl1 : FVec Ideal S128 .f32)
    (wl2 : FVec Ideal S128x10 .f32) (bl2 : FVec Ideal S10 .f32) :
    Chain.cls (F := Ideal) g wl1 bl1 wl2 bl2 = Cert.Spec.clsG g wl1 bl1 wl2 bl2 := by
  funext i
  obtain ⟨p, q, rfl⟩ : ∃ (p : Fin 1024) (q : Fin 10), i = ix2 p q := ⟨i 0, i 1, eq_ix2 i⟩
  show Chain.cls (F := Ideal) g wl1 bl1 wl2 bl2 (ix2 p q)
    = Cert.Spec.clsRow (fun t => g (ix2 p t)) (fun a b => wl1 (ix2 a b)) (fun k => bl1 (ix1 k))
        (fun a b => wl2 (ix2 a b)) (fun k => bl2 (ix1 k)) q
  unfold Chain.cls Cert.Spec.clsRow
  rw [logSoftmax_apply]
  refine congrArg (fun z : Fin 10 → EReal => Cert.Spec.lsmRow z q) (funext fun t => ?_)
  rw [classes_affine]
  refine congrArg (fun v : Fin 128 → EReal => Cert.Spec.lin v (fun a b => wl2 (ix2 a b)) (fun k => bl2 (ix1 k)) t) (funext fun k => ?_)
  rw [graphs_positive, graphs_affine]

end Cert.ReferenceIdeal.RefLayer

end
-- ==== Proof.Bridge.lean ====
/-
  The two programs' results are one function of the arguments. Stage by stage: the reference's convolution and read-out
  stages are the specification's row functions; the pooling stages are the same scatter-add; and the neighbour sums
  agree because, every source index being a node number, the kernel program's gather fills no row and so reads the
  same rows as the reference's. The first convolution's output feeds the second on both sides.
-/
import proofs.«417192_j53944789238579_1_alg».proof.Proof.Spec
import proofs.«417192_j53944789238579_1_alg».proof.Proof.Take
import proofs.«417192_j53944789238579_1_alg».proof.Proof.RefChain
import proofs.«417192_j53944789238579_1_alg».proof.Proof.RefLayer

noncomputable section

namespace Cert.Bridge

open Idealize.ShloMosaic Idealize.ShloMosaic.TcCoe Idealize.SL.Sem
open Cert.KernelIdeal.Take

/-- The pooling stages are one operation. -/
theorem pool_eq (h : FVec Ideal Cert.KernelIdeal.S100000x128 .f32) (batch : IVec Cert.KernelIdeal.S100000 32) :
    poolK (F := Ideal) h batch = Cert.ReferenceIdeal.Chain.pool (F := Ideal) h batch := rfl

/-- Where every source index is a node number, the neighbour sums are one function. -/
theorem agg_eq (h : FVec Ideal Cert.KernelIdeal.S100000x128 .f32) (e : IVec Cert.KernelIdeal.S2x1600000 32)
    (hs : ∀ i : Cert.KernelIdeal.S1600000.Idx, IntOp.cmpi .sge (srcOf e i) 0#32 = 1#1 ∧ IntOp.cmpi .slt (srcOf e i) 100000#32 = 1#1) :
    aggK (F := Ideal) h e = Cert.ReferenceIdeal.Chain.agg (F := Ideal) h e := by
  unfold aggK
  rw [takeK_eq_gather h (srcOf e) hs]
  rfl

/-- The reference's composition of its stages is the kernel program's composition of its own. -/
theorem result_eq (x : FVec Ideal Cert.KernelIdeal.S100000x128 .f32) (e : IVec Cert.KernelIdeal.S2x1600000 32) (batch : IVec Cert.KernelIdeal.S100000 32)
    (w3 : FVec Ideal Cert.KernelIdeal.S128x128 .f32) (b4 : FVec Ideal Cert.KernelIdeal.S128 .f32)
    (w5 : FVec Ideal Cert.KernelIdeal.S128x128 .f32) (b6 : FVec Ideal Cert.KernelIdeal.S128 .f32)
    (w7 : FVec Ideal Cert.KernelIdeal.S128x128 .f32) (b8 : FVec Ideal Cert.KernelIdeal.S128 .f32)
    (w9 : FVec Ideal Cert.KernelIdeal.S128x128 .f32) (b10 : FVec Ideal Cert.KernelIdeal.S128 .f32)
    (w11 : FVec Ideal Cert.KernelIdeal.S128x128 .f32) (b12 : FVec Ideal Cert.KernelIdeal.S128 .f32)
    (w13 : FVec Ideal Cert.KernelIdeal.S128x10 .f32) (b14 : FVec Ideal Cert.KernelIdeal.S10 .f32)
    (hs : ∀ i : Cert.KernelIdeal.S1600000.Idx, IntOp.cmpi .sge (srcOf e i) 0#32 = 1#1 ∧ IntOp.cmpi .slt (srcOf e i) 100000#32 = 1#1) :
    Cert.ReferenceIdeal.Chain.cls (F := Ideal)
        (Cert.ReferenceIdeal.Chain.pool
          (Cert.ReferenceIdeal.Chain.layer
            (Cert.ReferenceIdeal.Chain.layer x (Cert.ReferenceIdeal.Chain.agg x e) w3 b4 w5 b6)
            (Cert.ReferenceIdeal.Chain.agg (Cert.ReferenceIdeal.Chain.layer x (Cert.ReferenceIdeal.Chain.agg x e) w3 b4 w5 b6) e) w7 b8 w9 b10)
          batch) w11 b12 w13 b14
      = Cert.Spec.clsG
          (poolK (F := Ideal)
            (Cert.Spec.layerG (Cert.Spec.layerG x (aggK (F := Ideal) x e) w3 b4 w5 b6)
              (aggK (F := Ideal) (Cert.Spec.layerG x (aggK (F := Ideal) x e) w3 b4 w5 b6) e) w7 b8 w9 b10)
            batch) w11 b12 w13 b14 := by
  rw [Cert.ReferenceIdeal.RefLayer.cls_eq, Cert.ReferenceIdeal.RefLayer.layer_eq, Cert.ReferenceIdeal.RefLayer.layer_eq,
    agg_eq x e hs, agg_eq _ e hs, pool_eq]

end Cert.Bridge

end
-- ==== Proof.lean ====
/-
  A graph network of two GIN convolutions, a sum-pooling by graph and a log-softmax read-out, computed by a program of
  three kernel regions among host operations, against its reference of host operations only.

  Both programs gather each edge's source row, scatter-add it at the edge's target, add the result to the node features
  and apply `max(max(· Wa + ba, 0) Wb + bb, 0)`, twice; they then add the node rows of each graph and apply
  `logsoftmax(max(g Wl1 + bl1, 0) Wl2 + bl2)` in the shifted form. At the ideal values the kernels' matrix products
  into a zero accumulator are the host's contractions, a change of float format is the identity, and a region's blocks
  of rows are rows of one whole-array function, so the regions compute the same row functions as the reference's stages.
  The one difference is the gather: the kernel program fills a row with the not-a-number word where a source index is
  not a node number, the reference clamps the index. The precondition says every source index is a node number
  (`0 ≤ src < 100000`), and there the two gathers read the same rows. No finiteness is used: every step is an equation
  between the same sums and maxima.
-/
import proofs.«417192_j53944789238579_1_alg».proof.Defs
import proofs.«417192_j53944789238579_1_alg».proof.Proof.Gen.Kernel
import proofs.«417192_j53944789238579_1_alg».proof.Proof.Gen.Kernel.Frame
import proofs.«417192_j53944789238579_1_alg».proof.Proof.Gen.KernelIdeal
import proofs.«417192_j53944789238579_1_alg».proof.Proof.Gen.KernelIdeal.Frame
import proofs.«417192_j53944789238579_1_alg».proof.Proof.Gen.ReferenceIdeal
import proofs.«417192_j53944789238579_1_alg».proof.Proof.Gen.Pre_finite_inputs
import proofs.«417192_j53944789238579_1_alg».proof.Proof.KRun
import proofs.«417192_j53944789238579_1_alg».proof.Proof.KChain
import proofs.«417192_j53944789238579_1_alg».proof.Proof.RefRun
import proofs.«417192_j53944789238579_1_alg».proof.Proof.RefChain
import proofs.«417192_j53944789238579_1_alg».proof.Proof.Take
import proofs.«417192_j53944789238579_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both runs end with the read-out of the pooled second-convolution features of the (agreeing) arguments. -/
theorem algebraic : Cert.algebraic_KernelIdeal_ReferenceIdeal := by
  intro m ρ m' ρ' hpre hagree
  refine ⟨fun c => Cert.Spec.clsG (Cert.KernelIdeal.Take.poolK (F := Ideal) (Cert.KernelIdeal.KChain.h2K m c) (m ((c.tc : Thread Cert.KernelIdeal.nD Cert.KernelIdeal.τ).loc Cert.KernelIdeal.main_arg2)))
      (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KChain.W9_v17 m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Chain.res_eq]
    unfold Cert.ReferenceIdeal.Chain.h2 Cert.ReferenceIdeal.Chain.h1
    obtain ⟨a0, a1, a2, a3, a4, a5, a6, a7, a8, a9, a10, a11, a12, a13, a14⟩ := hagree c
    rw [a0, a1, a2, a3, a4, a5, a6, a7, a8, a9, a10, a11, a12, a13, a14]
    exact Cert.Bridge.result_eq _ _ _ _ _ _ _ _ _ _ _ _ _ _ _ (fun i => Cert.KernelIdeal.Take.src_in_range m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
